-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S2x524288 : Shape := ⟨2, ![2, 524288]⟩
abbrev S16384x16 : Shape := ⟨2, ![16384, 16]⟩
abbrev S16 : Shape := ⟨1, ![16]⟩
abbrev S16x16 : Shape := ⟨2, ![16, 16]⟩
abbrev S16x237 : Shape := ⟨2, ![16, 237]⟩
abbrev S237 : Shape := ⟨1, ![237]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x237 : S_.BroadcastsInDim S16x237 (![] : Fin 0 → Fin S16x237.rank)
  reducesTo_S16x237_S_d0_1 : S16x237.ReducesTo [0, 1] S_
  bcast_S_S237 : S_.BroadcastsInDim S237 (![] : Fin 0 → Fin S237.rank)
  reducesTo_S237_S_d0 : S237.ReducesTo [0] S_

variable [Facts]

def fn_part3 {F : FTy → Type} [FloatOps F] (main_arg12 : FVec F S237 .f32) (main_v48 : IVec S_ 1) (main_v49 : FVec F S16x237 .f32) (main_v50 : FVec F S16x237 .f32) : IVec S_ 1 :=
  let main_v51 : IVec S16x237 1 := cmpf .olt main_v49 main_v50
  let main_c_19 : IVec S_ 1 := constantI S_ 1 1#1
  let main_v52 : IVec S_ 1 := (fun x v => Host.reduce IntOp.andi x v reducesTo_S16x237_S_d0_1 h_S_) main_v51 main_c_19
  let main_v53 : IVec S_ 1 := andi main_v48 main_v52
  let main_v54 : FVec F S237 .f32 := Host.absf main_arg12
  let main_cst_20 : FVec F S_ .f32 := constant S_ .f32 0x7F800000#32
  let main_v55 : FVec F S237 .f32 := broadcastInDim S237 ![] bcast_S_S237 main_cst_20
  let main_v56 : IVec S237 1 := cmpf .olt main_v54 main_v55
  let main_c_21 : IVec S_ 1 := constantI S_ 1 1#1
  let main_v57 : IVec S_ 1 := (fun x v => Host.reduce IntOp.andi x v reducesTo_S237_S_d0 h_S_) main_v56 main_c_21
  let main_v58 : IVec S_ 1 := andi main_v53 main_v57
  main_v58

def fn_part2 {F : FTy → Type} [FloatOps F] (main_arg8 : FVec F S16x16 .f32) (main_arg9 : FVec F S16 .f32) (main_arg10 : FVec F S16x16 .f32) (main_arg11 : FVec F S16x237 .f32) (main_arg12 : FVec F S237 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16x237 .f32 := Host.absf main_arg11
  let main_cst_18 : FVec F S_ .f32 := constant S_ .f32 0x7F800000#32
  let main_v50 : FVec F S16x237 .f32 := broadcastInDim S16x237 ![] bcast_S_S16x237 main_cst_18
  fn_part3 (F := F) main_arg12 main_v48 main_v49 main_v50

def fn_part1 {F : FTy → Type} [FloatOps F] (main_arg5 : FVec F S16x16 .f32) (main_arg6 : FVec F S16 .f32) (main_arg7 : FVec F S16x16 .f32) (main_arg8 : FVec F S16x16 .f32) (main_arg9 : FVec F S16 .f32) (main_arg10 : FVec F S16x16 .f32) (main_arg11 : FVec F S16x237 .f32) (main_arg12 : FVec F S237 .f32) (main_v13 : IVec S_ 1) (main_v16 : IVec S16384x16 1) : IVec S_ 1 :=
  let main_c_5 : IVec S_ 1 := constantI S_ 1 1#1
  let main_v17 : IVec S_ 1 := (fun x v => Host.reduce IntOp.andi x v reducesTo_S16384x16_S_d0_1 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S16384x16384 .f32) (main_arg1 : IVec S2x524288 32) (main_arg2 : FVec F S16384x16 .f32) (main_arg3 : FVec F S16 .f32) (main_arg4 : FVec F S16384x16 .f32) (main_arg5 : FVec F S16x16 .f32) (main_arg6 : FVec F S16 .f32) (main_arg7 : FVec F S16x16 .f32) (main_arg8 : FVec F S16x16 .f32) (main_arg9 : FVec F S16 .f32) (main_arg10 : FVec F S16x16 .f32) (main_arg11 : FVec F S16x237 .f32) (main_arg12 : FVec F S237 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x16 .f32 := Host.absf main_arg2
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16384x16 .f32 := Host.absf main_arg4
  let main_cst_4 : FVec F S_ .f32 := constant S_ .f32 0x7F800000#32
  let main_v15 : FVec F S16384x16 .f32 := broadcastInDim S16384x16 ![] bcast_S_S16384x16 main_cst_4
  let main_v16 : IVec S16384x16 1 := cmpf .olt main_v14 main_v15
  fn_part1 (F := F) main_arg5 main_arg6 main_arg7 main_arg8 main_arg9 main_arg10 main_arg11 main_arg12 main_v13 main_v16
-- ==== Kernel.lean ====
abbrev S16384x16384 : Shape := ⟨2, ![16384, 16384]⟩
abbrev S2x524288 : Shape := ⟨2, ![2, 524288]⟩
abbrev S16384x16 : Shape := ⟨2, ![16384, 16]⟩
abbrev S16 : Shape := ⟨1, ![16]⟩
abbrev S16x16 : Shape := ⟨2, ![16, 16]⟩
abbrev S16x237 : Shape := ⟨2, ![16, 237]⟩
abbrev S237 : Shape := ⟨1, ![237]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x32 : Shape := ⟨2, ![16384, 32]⟩
abbrev S1024x2048 : Shape := ⟨2, ![1024, 2048]⟩
abbrev S2048x32 : Shape := ⟨2, ![2048, 32]⟩
abbrev S1024x32 : Shape := ⟨2, ![1024, 32]⟩
abbrev S524288x16 : Shape := ⟨2, ![524288, 16]⟩
abbrev S1x16 : Shape := ⟨2, ![1, 16]⟩
abbrev S16384x237 : Shape := ⟨2, ![16384, 237]⟩
abbrev S1x237 : Shape := ⟨2, ![1, 237]⟩

abbrev nBuf : Space → Nat
  | .hbm => 102
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S2x524288, .i32⟩
  | .hbm, ⟨2, _⟩ => ⟨S16384x16, .f32⟩
  | .hbm, ⟨3, _⟩ => ⟨S16, .f32⟩
  | .hbm, ⟨4, _⟩ => ⟨S16384x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x237, .f32⟩
  | .hbm, ⟨12, _⟩ => ⟨S237, .f32⟩
  | .hbm, ⟨13, _⟩ => ⟨S1x524288, .i32⟩
  | .hbm, ⟨14, _⟩ => ⟨S524288, .i32⟩
  | .hbm, ⟨15, _⟩ => ⟨S1x524288, .i32⟩
  | .hbm, ⟨16, _⟩ => ⟨S524288, .i32⟩
  | .hbm, ⟨17, _⟩ => ⟨S_, .f32⟩
  | .hbm, ⟨18, _⟩ => ⟨S524288, .f32⟩
  | .hbm, ⟨19, _⟩ => ⟨S_, .f32⟩
  | .hbm, ⟨20, _⟩ => ⟨S16384, .f32⟩
  | .hbm, ⟨21, _⟩ => ⟨S524288x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x32, .f32⟩
  | .hbm, ⟨28, _⟩ => ⟨S16384x32, .f32⟩
  | .hbm, ⟨29, _⟩ => ⟨S16384x16, .f32⟩
  | .hbm, ⟨30, _⟩ => ⟨S16384x16, .f32⟩
  | .hbm, ⟨31, _⟩ => ⟨S_, .i32⟩
  | .hbm, ⟨32, _⟩ => ⟨S524288, .i32⟩
  | .hbm, ⟨33, _⟩ => ⟨S524288, .i1⟩
  | .hbm, ⟨34, _⟩ => ⟨S_, .i32⟩
  | .hbm, ⟨35, _⟩ => ⟨S524288, .i32⟩
  | .hbm, ⟨36, _⟩ => ⟨S524288, .i32⟩
  | .hbm, ⟨37, _⟩ => ⟨S524288, .i32⟩
  | .hbm, ⟨38, _⟩ => ⟨S524288x1, .i32⟩
  | .hbm, ⟨39, _⟩ => ⟨S524288x16, .f32⟩
  | .hbm, ⟨40, _⟩ => ⟨S_, .f32⟩
  | .hbm, ⟨41, _⟩ => ⟨S16384x16, .f32⟩
  | .hbm, ⟨42, _⟩ => ⟨S524288x1, .i32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S1x16, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S_, .f32⟩
  | .hbm, ⟨51, _⟩ => ⟨S16384x16, .f32⟩
  | .hbm, ⟨52, _⟩ => ⟨S16384x16, .f32⟩
  | .hbm, ⟨53, _⟩ => ⟨S16384x16, .f32⟩
  | .hbm, ⟨54, _⟩ => ⟨S_, .i32⟩
  | .hbm, ⟨55, _⟩ => ⟨S524288, .i32⟩
  | .hbm, ⟨56, _⟩ => ⟨S524288, .i1⟩
  | .hbm, ⟨57, _⟩ => ⟨S_, .i32⟩
  | .hbm, ⟨58, _⟩ => ⟨S524288, .i32⟩
  | .hbm, ⟨59, _⟩ => ⟨S524288, .i32⟩
  | .hbm, ⟨60, _⟩ => ⟨S524288, .i32⟩
  | .hbm, ⟨61, _⟩ => ⟨S524288x1, .i32⟩
  | .hbm, ⟨62, _⟩ => ⟨S524288x16, .f32⟩
  | .hbm, ⟨63, _⟩ => ⟨S_, .f32⟩
  | .hbm, ⟨64, _⟩ => ⟨S16384x16, .f32⟩
  | .hbm, ⟨65, _⟩ => ⟨S524288x1, .i32⟩
  | .hbm, ⟨66, _⟩ => ⟨S16384x16, .f32⟩
  | .hbm, ⟨67, _⟩ => ⟨S16384x16, .f32⟩
  | .hbm, ⟨68, _⟩ => ⟨S16384x16, .f32⟩
  | .hbm, ⟨69, _⟩ => ⟨S1x16, .f32⟩
  | .hbm, ⟨70, _⟩ => ⟨S16384x16, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S_, .f32⟩
  | .hbm, ⟨75, _⟩ => ⟨S16384x16, .f32⟩
  | .hbm, ⟨76, _⟩ => ⟨S16384x16, .f32⟩
  | .hbm, ⟨77, _⟩ => ⟨S16384x16, .f32⟩
  | .hbm, ⟨78, _⟩ => ⟨S_, .i32⟩
  | .hbm, ⟨79, _⟩ => ⟨S524288, .i32⟩
  | .hbm, ⟨80, _⟩ => ⟨S524288, .i1⟩
  | .hbm, ⟨81, _⟩ => ⟨S_, .i32⟩
  | .hbm, ⟨82, _⟩ => ⟨S524288, .i32⟩
  | .hbm, ⟨83, _⟩ => ⟨S524288, .i32⟩
  | .hbm, ⟨84, _⟩ => ⟨S524288, .i32⟩
  | .hbm, ⟨85, _⟩ => ⟨S524288x1, .i32⟩
  | .hbm, ⟨86, _⟩ => ⟨S524288x16, .f32⟩
  | .hbm, ⟨87, _⟩ => ⟨S_, .f32⟩
  | .hbm, ⟨88, _⟩ => ⟨S16384x16, .f32⟩
  | .hbm, ⟨89, _⟩ => ⟨S524288x1, .i32⟩
  | .hbm, ⟨90, _⟩ => ⟨S16384x16, .f32⟩
  | .hbm, ⟨91, _⟩ => ⟨S16384x16, .f32⟩
  | .hbm, ⟨92, _⟩ => ⟨S16384x16, .f32⟩
  | .hbm, ⟨93, _⟩ => ⟨S1x16, .f32⟩
  | .hbm, ⟨94, _⟩ => ⟨S16384x16, .f32⟩
  | .hbm, ⟨95, _⟩ => ⟨S16384x16, .f32⟩
  | .hbm, ⟨96, _⟩ => ⟨S16384x16, .f32⟩
  | .hbm, ⟨97, _⟩ => ⟨S16384x16, .f32⟩
  | .hbm, ⟨98, _⟩ => ⟨S16384x237, .f32⟩
  | .hbm, ⟨99, _⟩ => ⟨S1x237, .f32⟩
  | .hbm, ⟨100, _⟩ => ⟨S16384x237, .f32⟩
  | .hbm, ⟨101, _⟩ => ⟨S16384x237, .f32⟩
  | .local _ .vmem, ⟨0, _⟩ => ⟨S1024x2048, .f32⟩
  | .local _ .vmem, ⟨1, _⟩ => ⟨S1024x2048, .f32⟩
  | .local _ .vmem, ⟨2, _⟩ => ⟨S2048x32, .f32⟩
  | .local _ .vmem, ⟨3, _⟩ => ⟨S2048x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_c_7 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  concatenates_S16384x16_S16384x16_S16384x32_d1 : Shape.Concatenates [S16384x16, S16384x16] S16384x32 1
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  slices_S16384x32_S16384x16_0_0 : S16384x32.Slices ![0, 0] S16384x16
  slices_S16384x32_S16384x16_0_16 : S16384x32.Slices ![0, 16] S16384x16
  bcast_S_S16384x16 : S_.BroadcastsInDim S16384x16 (![] : Fin 0 → Fin S16384x16.rank)
  bcast_S16384x1_S16384x16_0_1 : S16384x1.BroadcastsInDim S16384x16 (![0, 1] : Fin 2 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S237_S1x237_1 : S237.BroadcastsInDim S1x237 (![1] : Fin 1 → Fin S1x237.rank)
  bcast_S1x237_S16384x237_0_1 : S1x237.BroadcastsInDim S16384x237 (![0, 1] : Fin 2 → Fin S16384x237.rank)
  scatter_S16384_S524288x1_S524288_n_0_0_1_wf : ScatterDims.WF S16384 S524288x1 S524288 [] [0] [0] 1
  dot_S1024x2048_S2048x32_S1024x32_1_0_0_1_n_n_wf : DotDims.WF S1024x2048 S2048x32 S1024x32 [1] [0] [0] [1] [] []
  gather_S16384x16_S524288x1_S524288x16_1_0_n_n_0_1_116_wf : GatherDims.WF S16384x16 S524288x1 S524288x16 [1] [0] [] [0] [] 1 ![1, 16]
  scatter_S16384x16_S524288x1_S524288x16_1_0_0_1_wf : ScatterDims.WF S16384x16 S524288x1 S524288x16 [1] [0] [0] 1
  dot_S16384x16_S16x16_S16384x16_1_0_0_1_n_n_wf : DotDims.WF S16384x16 S16x16 S16384x16 [1] [0] [0] [1] [] []
  dot_S16384x16_S16x237_S16384x237_1_0_0_1_n_n_wf : DotDims.WF S16384x16 S16x237 S16384x237 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def gather_S16384x16_S524288x1_S524288x16_1_0_n_n_0_1_116 : GatherDims S16384x16 S524288x1 S524288x16 where
  offsetDims := [1]
  collapsedSliceDims := [0]
  operandBatchingDims := []
  startIndicesBatchingDims := []
  startIndexMap := [0]
  indexVectorDim := 1
  sliceSizes := ![1, 16]
  wf := gather_S16384x16_S524288x1_S524288x16_1_0_n_n_0_1_116_wf
def scatter_S16384x16_S524288x1_S524288x16_1_0_0_1 : ScatterDims S16384x16 S524288x1 S524288x16 where
  updateWindowDims := [1]
  insertedWindowDims := [0]
  scatterDimsToOperandDims := [0]
  indexVectorDim := 1
  wf := scatter_S16384x16_S524288x1_S524288x16_1_0_0_1_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x237_S16384x237_1_0_0_1_n_n : DotDims S16384x16 S16x237 S16384x237 where
  lhsContracting := [1]
  rhsContracting := [0]
  lhsNonContracting := [0]
  rhsNonContracting := [1]
  lhsBatch := []
  rhsBatch := []
  wf := dot_S16384x16_S16x237_S16384x237_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S2x524288 : Shape := ⟨2, ![2, 524288]⟩
abbrev S16384x16 : Shape := ⟨2, ![16384, 16]⟩
abbrev S16 : Shape := ⟨1, ![16]⟩
abbrev S16x16 : Shape := ⟨2, ![16, 16]⟩
abbrev S16x237 : Shape := ⟨2, ![16, 237]⟩
abbrev S237 : Shape := ⟨1, ![237]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x16 : Shape := ⟨2, ![524288, 16]⟩
abbrev S16384 : Shape := ⟨1, ![16384]⟩
abbrev S16384x1 : Shape := ⟨2, ![16384, 1]⟩
abbrev S1x16 : Shape := ⟨2, ![1, 16]⟩
abbrev S16384x237 : Shape := ⟨2, ![16384, 237]⟩
abbrev S1x237 : Shape := ⟨2, ![1, 237]⟩

abbrev nBuf : Space → Nat
  | .hbm => 120
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S2x524288, .i32⟩
  | .hbm, ⟨2, _⟩ => ⟨S16384x16, .f32⟩
  | .hbm, ⟨3, _⟩ => ⟨S16, .f32⟩
  | .hbm, ⟨4, _⟩ => ⟨S16384x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x237, .f32⟩
  | .hbm, ⟨12, _⟩ => ⟨S237, .f32⟩
  | .hbm, ⟨13, _⟩ => ⟨S1x524288, .i32⟩
  | .hbm, ⟨14, _⟩ => ⟨S524288, .i32⟩
  | .hbm, ⟨15, _⟩ => ⟨S1x524288, .i32⟩
  | .hbm, ⟨16, _⟩ => ⟨S524288, .i32⟩
  | .hbm, ⟨17, _⟩ => ⟨S16384x16, .f32⟩
  | .hbm, ⟨18, _⟩ => ⟨S_, .i32⟩
  | .hbm, ⟨19, _⟩ => ⟨S524288, .i32⟩
  | .hbm, ⟨20, _⟩ => ⟨S524288, .i1⟩
  | .hbm, ⟨21, _⟩ => ⟨S_, .i32⟩
  | .hbm, ⟨22, _⟩ => ⟨S524288, .i32⟩
  | .hbm, ⟨23, _⟩ => ⟨S524288, .i32⟩
  | .hbm, ⟨24, _⟩ => ⟨S524288, .i32⟩
  | .hbm, ⟨25, _⟩ => ⟨S524288x1, .i32⟩
  | .hbm, ⟨26, _⟩ => ⟨S524288x16, .f32⟩
  | .hbm, ⟨27, _⟩ => ⟨S_, .f32⟩
  | .hbm, ⟨28, _⟩ => ⟨S16384x16, .f32⟩
  | .hbm, ⟨29, _⟩ => ⟨S524288x1, .i32⟩
  | .hbm, ⟨30, _⟩ => ⟨S16384x16, .f32⟩
  | .hbm, ⟨31, _⟩ => ⟨S_, .f32⟩
  | .hbm, ⟨32, _⟩ => ⟨S524288, .f32⟩
  | .hbm, ⟨33, _⟩ => ⟨S_, .f32⟩
  | .hbm, ⟨34, _⟩ => ⟨S16384, .f32⟩
  | .hbm, ⟨35, _⟩ => ⟨S524288x1, .i32⟩
  | .hbm, ⟨36, _⟩ => ⟨S16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S16384x1, .f32⟩
  | .hbm, ⟨41, _⟩ => ⟨S16384x16, .f32⟩
  | .hbm, ⟨42, _⟩ => ⟨S16384x16, .f32⟩
  | .hbm, ⟨43, _⟩ => ⟨S1x16, .f32⟩
  | .hbm, ⟨44, _⟩ => ⟨S16384x16, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S_, .f32⟩
  | .hbm, ⟨49, _⟩ => ⟨S16384x16, .f32⟩
  | .hbm, ⟨50, _⟩ => ⟨S16384x16, .f32⟩
  | .hbm, ⟨51, _⟩ => ⟨S16384x16, .f32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288x16, .f32⟩
  | .hbm, ⟨61, _⟩ => ⟨S_, .f32⟩
  | .hbm, ⟨62, _⟩ => ⟨S16384x16, .f32⟩
  | .hbm, ⟨63, _⟩ => ⟨S524288x1, .i32⟩
  | .hbm, ⟨64, _⟩ => ⟨S16384x16, .f32⟩
  | .hbm, ⟨65, _⟩ => ⟨S_, .f32⟩
  | .hbm, ⟨66, _⟩ => ⟨S524288, .f32⟩
  | .hbm, ⟨67, _⟩ => ⟨S_, .f32⟩
  | .hbm, ⟨68, _⟩ => ⟨S16384, .f32⟩
  | .hbm, ⟨69, _⟩ => ⟨S524288x1, .i32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S16384x1, .f32⟩
  | .hbm, ⟨75, _⟩ => ⟨S16384x16, .f32⟩
  | .hbm, ⟨76, _⟩ => ⟨S16384x16, .f32⟩
  | .hbm, ⟨77, _⟩ => ⟨S1x16, .f32⟩
  | .hbm, ⟨78, _⟩ => ⟨S16384x16, .f32⟩
  | .hbm, ⟨79, _⟩ => ⟨S16384x16, .f32⟩
  | .hbm, ⟨80, _⟩ => ⟨S16384x16, .f32⟩
  | .hbm, ⟨81, _⟩ => ⟨S16384x16, .f32⟩
  | .hbm, ⟨82, _⟩ => ⟨S_, .f32⟩
  | .hbm, ⟨83, _⟩ => ⟨S16384x16, .f32⟩
  | .hbm, ⟨84, _⟩ => ⟨S16384x16, .f32⟩
  | .hbm, ⟨85, _⟩ => ⟨S16384x16, .f32⟩
  | .hbm, ⟨86, _⟩ => ⟨S_, .i32⟩
  | .hbm, ⟨87, _⟩ => ⟨S524288, .i32⟩
  | .hbm, ⟨88, _⟩ => ⟨S524288, .i1⟩
  | .hbm, ⟨89, _⟩ => ⟨S_, .i32⟩
  | .hbm, ⟨90, _⟩ => ⟨S524288, .i32⟩
  | .hbm, ⟨91, _⟩ => ⟨S524288, .i32⟩
  | .hbm, ⟨92, _⟩ => ⟨S524288, .i32⟩
  | .hbm, ⟨93, _⟩ => ⟨S524288x1, .i32⟩
  | .hbm, ⟨94, _⟩ => ⟨S524288x16, .f32⟩
  | .hbm, ⟨95, _⟩ => ⟨S_, .f32⟩
  | .hbm, ⟨96, _⟩ => ⟨S16384x16, .f32⟩
  | .hbm, ⟨97, _⟩ => ⟨S524288x1, .i32⟩
  | .hbm, ⟨98, _⟩ => ⟨S16384x16, .f32⟩
  | .hbm, ⟨99, _⟩ => ⟨S_, .f32⟩
  | .hbm, ⟨100, _⟩ => ⟨S524288, .f32⟩
  | .hbm, ⟨101, _⟩ => ⟨S_, .f32⟩
  | .hbm, ⟨102, _⟩ => ⟨S16384, .f32⟩
  | .hbm, ⟨103, _⟩ => ⟨S524288x1, .i32⟩
  | .hbm, ⟨104, _⟩ => ⟨S16384, .f32⟩
  | .hbm, ⟨105, _⟩ => ⟨S_, .f32⟩
  | .hbm, ⟨106, _⟩ => ⟨S16384, .f32⟩
  | .hbm, ⟨107, _⟩ => ⟨S16384, .f32⟩
  | .hbm, ⟨108, _⟩ => ⟨S16384x1, .f32⟩
  | .hbm, ⟨109, _⟩ => ⟨S16384x16, .f32⟩
  | .hbm, ⟨110, _⟩ => ⟨S16384x16, .f32⟩
  | .hbm, ⟨111, _⟩ => ⟨S1x16, .f32⟩
  | .hbm, ⟨112, _⟩ => ⟨S16384x16, .f32⟩
  | .hbm, ⟨113, _⟩ => ⟨S16384x16, .f32⟩
  | .hbm, ⟨114, _⟩ => ⟨S16384x16, .f32⟩
  | .hbm, ⟨115, _⟩ => ⟨S16384x16, .f32⟩
  | .hbm, ⟨116, _⟩ => ⟨S16384x237, .f32⟩
  | .hbm, ⟨117, _⟩ => ⟨S1x237, .f32⟩
  | .hbm, ⟨118, _⟩ => ⟨S16384x237, .f32⟩
  | .hbm, ⟨119, _⟩ => ⟨S16384x237, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x16 : S_.BroadcastsInDim S16384x16 (![] : Fin 0 → Fin S16384x16.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S237_S1x237_1 : S237.BroadcastsInDim S1x237 (![1] : Fin 1 → Fin S1x237.rank)
  bcast_S1x237_S16384x237_0_1 : S1x237.BroadcastsInDim S16384x237 (![0, 1] : Fin 2 → Fin S16384x237.rank)
  dot_S16384x16384_S16384x16_S16384x16_1_0_0_1_n_n_wf : DotDims.WF S16384x16384 S16384x16 S16384x16 [1] [0] [0] [1] [] []
  gather_S16384x16_S524288x1_S524288x16_1_0_n_n_0_1_116_wf : GatherDims.WF S16384x16 S524288x1 S524288x16 [1] [0] [] [0] [] 1 ![1, 16]
  scatter_S16384x16_S524288x1_S524288x16_1_0_0_1_wf : ScatterDims.WF S16384x16 S524288x1 S524288x16 [1] [0] [0] 1
  scatter_S16384_S524288x1_S524288_n_0_0_1_wf : ScatterDims.WF S16384 S524288x1 S524288 [] [0] [0] 1
  dot_S16384x16_S16x16_S16384x16_1_0_0_1_n_n_wf : DotDims.WF S16384x16 S16x16 S16384x16 [1] [0] [0] [1] [] []
  dot_S16384x16_S16x237_S16384x237_1_0_0_1_n_n_wf : DotDims.WF S16384x16 S16x237 S16384x237 [1] [0] [0] [1] [] []

variable [Facts₀]

def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf
def gather_S16384x16_S524288x1_S524288x16_1_0_n_n_0_1_116 : GatherDims S16384x16 S524288x1 S524288x16 where
  offsetDims := [1]
  collapsedSliceDims := [0]
  operandBatchingDims := []
  startIndicesBatchingDims := []
  startIndexMap := [0]
  indexVectorDim := 1
  sliceSizes := ![1, 16]
  wf := gather_S16384x16_S524288x1_S524288x16_1_0_n_n_0_1_116_wf
def scatter_S16384x16_S524288x1_S524288x16_1_0_0_1 : ScatterDims S16384x16 S524288x1 S524288x16 where
  updateWindowDims := [1]
  insertedWindowDims := [0]
  scatterDimsToOperandDims := [0]
  indexVectorDim := 1
  wf := scatter_S16384x16_S524288x1_S524288x16_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x237_S16384x237_1_0_0_1_n_n : DotDims S16384x16 S16x237 S16384x237 where
  lhsContracting := [1]
  rhsContracting := [0]
  lhsNonContracting := [0]
  rhsNonContracting := [1]
  lhsBatch := []
  rhsBatch := []
  wf := dot_S16384x16_S16x237_S16384x237_1_0_0_1_n_n_wf

class Facts : Prop extends Facts₀ where

variable [Facts]
-- ==== Proof.K.Entry.lean ====
/-
  The kernel program, read at the word level, around its one region.  @main is fifteen host operations (the two rows of the edge list,
  the in-degree of every node by a scatter of ones, its floor at one, the weight matrix [W1l | W1r] side by side), the
  K-blocked matrix product as a pipeline over a 16 x 8 grid, and five later stretches of host operations (seventy-three in
  all: the three graph-convolution layers and the output head).  Named here: the buffer contents the region is entered
  with, the later stretches as one list, and the block of a window's array that a grid point works on.
-/
import proofs.«151015_j27419071218491_1_alg».proof.Proof.Gen.Kernel.Launch
import proofs.«151015_j27419071218491_1_alg».proof.Proof.Gen.Kernel.Skeleton
import proofs.«151015_j27419071218491_1_alg».proof.Proof.Gen.Kernel.Points
import Idealize.ShloMosaic.Lib.Pipeline.FrameBody
import Idealize.ShloMosaic.Lib.Pipeline.FrameSuffix

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]
variable (m : (ℓ : Loc nD τ sig) → Buf (Elt F) ℓ)

/-- What core `c`'s buffers hold when the region is entered: the launch contents after the fifteen earlier operations. -/
abbrev entry (c : Dev nD) : Valuation τ sig (Elt F) := StableHlo.after (List.flatten [hostOps0]) (fun b => m (c, b))

/-- The same, read at one TensorCore buffer. -/
abbrev entryAt (c : Dev nD) (b : Ref sig .tc) : Buf (Elt F) ((c : Thread nD τ).loc b) := entry m c (Proc.devRef .tc b)

/-- The host operations after the region, stretch by stretch. -/
abbrev later : List (List (HloOp τ sig (Elt F))) := [hostOps1, hostOps1_1, hostOps1_2, hostOps1_3, hostOps1_4]

/-- The block of window `w`'s array that grid point `t` works on, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

end Cert.Kernel.Around

end
-- ==== Proof.K.Steps.lean ====
/-
  One grid point of the K-blocked product, run on whole staging buffers: the body loads the point's block of x
  (1024 x 2048) and of the weights (2048 x 32), adds their product to the accumulator, and leaves both input blocks as it
  found them.  Three cases by the reduction step: at step 0 the accumulator is first set to zero, so it ends at the product
  alone; at steps 1 to 6 it ends at its earlier contents plus the product; at step 7 the same, and the new accumulator is
  also copied into the output block.  Each case is stated with the accumulator's contents written out (the body's payload
  `k0_pay2` of the two blocks and the earlier accumulator, `k0_pay1` being the zero block), so that what the accumulator
  holds after every point is a plain recursion on the point.
-/
import proofs.«151015_j27419071218491_1_alg».proof.Proof.Gen.Kernel.Launch
import proofs.«151015_j27419071218491_1_alg».proof.Proof.Gen.Kernel.Skeleton
import proofs.«151015_j27419071218491_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
local notation "𝕄" => MT nD τ sig Unit (Elt F) ℕ (UR sig nD τ) ℕ

/-- The first branch's condition (the reduction step is 0), as the body computes it from the grid coordinates. -/
abbrev atFirst (i : grid0.Coords) : Prop :=
  (Scalar.cmpi .ne (Scalar.extui (Scalar.cmpi .eq (BitVec.ofNat 32 (i 1).val) 0#32)) 0#32) = 1#1
/-- The second branch's condition (the reduction step is 7). -/
abbrev atLast (i : grid0.Coords) : Prop := k0_cond2 i = 1#1

/-- The zero offsets of a whole-block rectangle, however the two zeros are spelt. -/
theorem zero_off (S : Shape) (h : S.rank = 2) : ((![0, 0] : Fin 2 → Nat) ∘ Fin.cast h) = fun _ => 0 := by
  funext a; simp only [Function.comp]; generalize Fin.cast h a = b; fin_cases b <;> rfl

theorem z32 : (![0, 0] : Fin S1024x32.rank → Nat) = fun _ => 0 := by funext a; fin_cases a <;> rfl
theorem zX : (![0, 0] : Fin S1024x2048.rank → Nat) = fun _ => 0 := by funext a; fin_cases a <;> rfl
theorem zW : (![0, 0] : Fin S2048x32.rank → Nat) = fun _ => 0 := by funext a; fin_cases a <;> rfl

set_option maxHeartbeats 2000000 in
/-- Steps 1 to 6: the accumulator goes from `acc` to `k0_pay2 x w acc`; the output block is not touched. -/
theorem step_mid (c : Dev nD) (i : grid0.Coords)
    (aX : Memref sig .tc .vmem S1024x2048 .f32) (hX : aX.IsWhole) (aW : Memref sig .tc .vmem S2048x32 .f32) (hW : aW.IsWhole)
    (aO : Memref sig .tc .vmem S1024x32 .f32) (hO : aO.IsWhole) (aA : Memref sig .tc .vmem S1024x32 .f32) (hA : aA.IsWhole)
    (h1 : ¬atFirst i) (h2 : ¬atLast i)
    (x : Vec F S1024x2048 .f32) (w : Vec F S2048x32 .f32) (o : Vec F S1024x32 .f32) (acc : Vec F S1024x32 .f32)
    (E : Set ℕ) (K : PUnit → sProp 𝕄) :
    iprop(owns (c : Thread nD τ) aX fullShare x ∗ owns (c : Thread nD τ) aW fullShare w ∗ owns (c : Thread nD τ) aO fullShare o
        ∗ owns (c : Thread nD τ) aA fullShare acc
        ∗ (iprop(owns (c : Thread nD τ) aX fullShare x ∗ owns (c : Thread nD τ) aW fullShare w ∗ owns (c : Thread nD τ) aO fullShare o
            ∗ owns (c : Thread nD τ) aA fullShare (k0_pay2 x w acc)) -∗ K ⟨⟩))
      ⊢ wp frame (wpE (defs₀ (F := F)) Variants.none c none) E (cc0__matmul_kernel i aX hX aW hW aO hO aA hA) K := by
  simp only [cc0__matmul_kernel_eq_skeleton]; unfold cc0__matmul_kernel_skel
  unfold owns
  iintro ⟨⟨%fx, %hfx, HX⟩, ⟨%fw, %hfw, HW⟩, ⟨%fO, %hfo, HO⟩, ⟨%fa, %hfa, HA⟩, Hk⟩
  obtain rfl := hX.eq_unread hfx; obtain rfl := hW.eq_unread hfw; obtain rfl := hA.eq_unread hfa
  sl_exec (disch := first | exact h1 | exact h2)
  sl_step
  iapply Hk
  isplitl [HX]
  · iexists _; isplitr; · ipureintro; exact hX.read_unread _
    iexact HX
  isplitl [HW]
  · iexists _; isplitr; · ipureintro; exact hW.read_unread _
    iexact HW
  isplitl [HO]
  · iexists fO; isplitr; · ipureintro; exact hfo
    iexact HO
  iexists _; isplitr
  swap; · iexact HA
  ipureintro
  sl_unfold_words
  rw [View.read_writes_eq_canon _ _ _ (fun y => ⟨_, List.mem_cons.mpr (Or.inl rfl), View.mem_set_unit_zero z32 Cert.Kernel.Facts₀.inb_S1024x32_S1024x32_0_0 y⟩), View.canon_cons_unit_zero z32]
  simp only [View.readAt_eq_ld, View.readCov_unit_zero (S := S1024x32) _ z32, hX.read_unread, hW.read_unread, hA.read_unread,
    View.ld_unit_zero (S := S1024x2048) zX, View.ld_unit_zero (S := S2048x32) zW, View.ld_unit_zero (S := S1024x32) z32]

set_option maxHeartbeats 2000000 in
/-- Step 0: whatever the accumulator held, it ends at `k0_pay2 x w k0_pay1`; the output block is not touched. -/
theorem step_first (c : Dev nD) (i : grid0.Coords)
    (aX : Memref sig .tc .vmem S1024x2048 .f32) (hX : aX.IsWhole) (aW : Memref sig .tc .vmem S2048x32 .f32) (hW : aW.IsWhole)
    (aO : Memref sig .tc .vmem S1024x32 .f32) (hO : aO.IsWhole) (aA : Memref sig .tc .vmem S1024x32 .f32) (hA : aA.IsWhole)
    (h1 : atFirst i) (h2 : ¬atLast i)
    (x : Vec F S1024x2048 .f32) (w : Vec F S2048x32 .f32) (o : Vec F S1024x32 .f32)
    (E : Set ℕ) (K : PUnit → sProp 𝕄) :
    iprop(owns (c : Thread nD τ) aX fullShare x ∗ owns (c : Thread nD τ) aW fullShare w ∗ owns (c : Thread nD τ) aO fullShare o
        ∗ (∃ d, owns (c : Thread nD τ) aA fullShare d)
        ∗ (iprop(owns (c : Thread nD τ) aX fullShare x ∗ owns (c : Thread nD τ) aW fullShare w ∗ owns (c : Thread nD τ) aO fullShare o
            ∗ owns (c : Thread nD τ) aA fullShare (k0_pay2 x w (k0_pay1 (F := F)))) -∗ K ⟨⟩))
      ⊢ wp frame (wpE (defs₀ (F := F)) Variants.none c none) E (cc0__matmul_kernel i aX hX aW hW aO hO aA hA) K := by
  simp only [cc0__matmul_kernel_eq_skeleton]; unfold cc0__matmul_kernel_skel
  unfold owns
  iintro ⟨⟨%fx, %hfx, HX⟩, ⟨%fw, %hfw, HW⟩, ⟨%fO, %hfo, HO⟩, ⟨%dA, %fa, -, HA⟩, Hk⟩
  obtain rfl := hX.eq_unread hfx; obtain rfl := hW.eq_unread hfw
  sl_exec (disch := first | exact h1 | exact h2)
  sl_step
  iapply Hk
  isplitl [HX]
  · iexists _; isplitr; · ipureintro; exact hX.read_unread _
    iexact HX
  isplitl [HW]
  · iexists _; isplitr; · ipureintro; exact hW.read_unread _
    iexact HW
  isplitl [HO]
  · iexists fO; isplitr; · ipureintro; exact hfo
    iexact HO
  iexists _; isplitr
  swap; · iexact HA
  ipureintro
  sl_unfold_words
  rw [View.read_writes_eq_canon _ _ _ (fun y => ⟨_, List.mem_cons.mpr (Or.inl rfl), View.mem_set_unit_zero z32 Cert.Kernel.Facts₀.inb_S1024x32_S1024x32_0_0 y⟩), View.canon_cons_unit_zero z32]
  simp only [View.readAt_eq_ld, View.readCov_unit_zero (S := S1024x32) _ z32, hX.read_unread, hW.read_unread,
    View.ld_unit_zero (S := S1024x2048) zX, View.ld_unit_zero (S := S2048x32) zW, View.ld_unit_zero (S := S1024x32) z32]

set_option maxHeartbeats 2000000 in
/-- Step 7: the accumulator goes from `acc` to `k0_pay2 x w acc`, and the output block ends at the same. -/
theorem step_last (c : Dev nD) (i : grid0.Coords)
    (aX : Memref sig .tc .vmem S1024x2048 .f32) (hX : aX.IsWhole) (aW : Memref sig .tc .vmem S2048x32 .f32) (hW : aW.IsWhole)
    (aO : Memref sig .tc .vmem S1024x32 .f32) (hO : aO.IsWhole) (aA : Memref sig .tc .vmem S1024x32 .f32) (hA : aA.IsWhole)
    (h1 : ¬atFirst i) (h2 : atLast i)
    (x : Vec F S1024x2048 .f32) (w : Vec F S2048x32 .f32) (acc : Vec F S1024x32 .f32)
    (E : Set ℕ) (K : PUnit → sProp 𝕄) :
    iprop(owns (c : Thread nD τ) aX fullShare x ∗ owns (c : Thread nD τ) aW fullShare w ∗ (∃ d, owns (c : Thread nD τ) aO fullShare d)
        ∗ owns (c : Thread nD τ) aA fullShare acc
        ∗ (iprop(owns (c : Thread nD τ) aX fullShare x ∗ owns (c : Thread nD τ) aW fullShare w ∗ owns (c : Thread nD τ) aO fullShare (k0_pay2 x w acc)
            ∗ owns (c : Thread nD τ) aA fullShare (k0_pay2 x w acc)) -∗ K ⟨⟩))
      ⊢ wp frame (wpE (defs₀ (F := F)) Variants.none c none) E (cc0__matmul_kernel i aX hX aW hW aO hO aA hA) K := by
  simp only [cc0__matmul_kernel_eq_skeleton]; unfold cc0__matmul_kernel_skel
  unfold owns
  iintro ⟨⟨%fx, %hfx, HX⟩, ⟨%fw, %hfw, HW⟩, ⟨%dO, %fO, -, HO⟩, ⟨%fa, %hfa, HA⟩, Hk⟩
  obtain rfl := hX.eq_unread hfx; obtain rfl := hW.eq_unread hfw; obtain rfl := hA.eq_unread hfa
  sl_exec (disch := first | exact h1 | exact h2)
  sl_step
  iapply Hk
  isplitl [HX]
  · iexists _; isplitr; · ipureintro; exact hX.read_unread _
    iexact HX
  isplitl [HW]
  · iexists _; isplitr; · ipureintro; exact hW.read_unread _
    iexact HW
  isplitl [HO]
  · iexists _; isplitr
    swap; · iexact HO
    ipureintro
    sl_unfold_words
    rw [View.read_writes_eq_canon _ _ _ (fun y => ⟨_, List.mem_cons.mpr (Or.inl rfl), View.mem_set_unit_zero z32 Cert.Kernel.Facts₀.inb_S1024x32_S1024x32_0_0 y⟩), View.canon_cons_unit_zero z32]
    simp only [View.readAt_eq_ld, View.readCov_unit_zero (S := S1024x32) _ z32, hX.read_unread, hW.read_unread, hA.read_unread,
      View.ld_unit_zero (S := S1024x2048) zX, View.ld_unit_zero (S := S2048x32) zW, View.ld_unit_zero (S := S1024x32) z32]
  iexists _; isplitr
  swap; · iexact HA
  ipureintro
  sl_unfold_words
  rw [View.read_writes_eq_canon _ _ _ (fun y => ⟨_, List.mem_cons.mpr (Or.inl rfl), View.mem_set_unit_zero z32 Cert.Kernel.Facts₀.inb_S1024x32_S1024x32_0_0 y⟩), View.canon_cons_unit_zero z32]
  simp only [View.readAt_eq_ld, View.readCov_unit_zero (S := S1024x32) _ z32, hX.read_unread, hW.read_unread, hA.read_unread,
    View.ld_unit_zero (S := S1024x2048) zX, View.ld_unit_zero (S := S2048x32) zW, View.ld_unit_zero (S := S1024x32) z32]

end Cert.Kernel.Around

end
-- ==== Proof.K.Cases.lean ====
/-
  The body's two branches, read over the 16 x 8 grid (point t is row-block t / 8, reduction step t % 8): the accumulator is
  reset at step 0 and copied to the output block at step 7.  So the output window is idle at every step but the last of a
  row-block, and is written back exactly there.  Also named: the staging memrefs a point is called with, the accumulator's
  memref, and the region's class invariant with the accumulator spelt out.
-/
import proofs.«151015_j27419071218491_1_alg».proof.Proof.K.Entry
import proofs.«151015_j27419071218491_1_alg».proof.Proof.K.Steps
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem atFirst_iff : ∀ t : Fin cfg0.N, atFirst (grid0.coords t) ↔ t.val % 8 = 0 :=
  (by decide +kernel : ∀ t : Fin grid0.N, atFirst (grid0.coords t) ↔ t.val % 8 = 0)
theorem atLast_iff : ∀ t : Fin cfg0.N, atLast (grid0.coords t) ↔ t.val % 8 = 7 :=
  (by decide +kernel : ∀ t : Fin grid0.N, atLast (grid0.coords t) ↔ t.val % 8 = 7)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- Off the last step the output window is idle and is not written back; at the last step it is live. -/
theorem idle2 : ∀ t : Fin cfg0.N, ¬atLast (grid0.coords t) → cfg0.idle 2 (grid0.coords t) = true := by decide +kernel
theorem noFlush2 : ∀ t : Fin cfg0.N, ¬atLast (grid0.coords t) → (cfg0.win 2).flush t = false := by decide +kernel
theorem live2 : ∀ t : Fin cfg0.N, atLast (grid0.coords t) → cfg0.idle 2 (grid0.coords t) = false := by decide +kernel

/-- The staging memrefs point `t` is called with, and that they are whole buffers. -/
abbrev stX (t : Fin cfg0.N) : Memref sig .tc .vmem S1024x2048 .f32 := win0_0.stage (cfg0.slots t 0)
abbrev stX_whole (t : Fin cfg0.N) : (stX t).IsWhole := hstage0_0 ((cfg0.slots t 0).cast nbuf0_0)
abbrev stW (t : Fin cfg0.N) : Memref sig .tc .vmem S2048x32 .f32 := win0_1.stage (cfg0.slots t 1)
abbrev stW_whole (t : Fin cfg0.N) : (stW t).IsWhole := hstage0_1 ((cfg0.slots t 1).cast nbuf0_1)
abbrev stO (t : Fin cfg0.N) : Memref sig .tc .vmem S1024x32 .f32 := win0_2.stage (cfg0.slots t 2)
abbrev stO_whole (t : Fin cfg0.N) : (stO t).IsWhole := hstage0_2 ((cfg0.slots t 2).cast nbuf0_2)
/-- The accumulator: a scratch buffer of the kernel's own, passed beside the windows. -/
abbrev accM : Memref sig .tc .vmem S1024x32 .f32 := Memref.whole cc0_scratch0

/-- The class invariant of the region, the accumulator owned at some contents and the generator register at some state. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Around

end
-- ==== Proof.K.Carried.lean ====
/-
  What the accumulator holds after every grid point, and the region's proof data built on it.  Within a row-block
  (eight consecutive points) the accumulator after step k is the body's payload of the step's two blocks and of what step
  k - 1 left, the zero block standing for "what step -1 left" at k = 0: a recursion on the point.  The output window's
  block is written back only at step 7, where it is that same accumulator.  The body obligation follows from the three
  runs of one point, the invariant carrying the accumulator from each point to the next.
-/
import proofs.«151015_j27419071218491_1_alg».proof.Proof.K.Cases

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after point `n`. -/
def accAt (c : Dev nD) : (n : ℕ) → n < cfg0.N → Vec F S1024x32 .f32
  | 0, hn => k0_pay2 (blockAt m c 0 ⟨0, hn⟩) (blockAt m c 1 ⟨0, hn⟩) (k0_pay1 (F := F))
  | n + 1, hn =>
    if (n + 1) % 8 = 0 then k0_pay2 (blockAt m c 0 ⟨n + 1, hn⟩) (blockAt m c 1 ⟨n + 1, hn⟩) (k0_pay1 (F := F))
    else k0_pay2 (blockAt m c 0 ⟨n + 1, hn⟩) (blockAt m c 1 ⟨n + 1, hn⟩) (accAt c n (Nat.lt_of_succ_lt hn))

/-- At the first step of a row-block the accumulator is the product alone (over the zero block). -/
theorem accAt_first (c : Dev nD) (t : Fin cfg0.N) (h : t.val % 8 = 0) :
    accAt m c t.val t.isLt = k0_pay2 (blockAt m c 0 t) (blockAt m c 1 t) (k0_pay1 (F := F)) := by
  obtain ⟨n, hn⟩ := t
  cases n with
  | zero => rfl
  | succ n => exact (if_pos h).trans rfl

/-- At a later step it is the product added to what the point before left. -/
theorem accAt_next (c : Dev nD) (t : Fin cfg0.N) (h : ¬t.val % 8 = 0) :
    accAt m c t.val t.isLt = k0_pay2 (blockAt m c 0 t) (blockAt m c 1 t)
      (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The invariant before point `n`: before the first point the class's (the accumulator at anything); afterwards the
    accumulator at what the point before left, and the generator register at some state. -/
def inv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) accM fullShare (accAt m c n hn)) ∗ (∃ r, prngReg c r)) := rfl
theorem inv_pos (c : Dev nD) (n : ℕ) (h : n ≤ cfg0.N) (hz : n ≠ 0) :
    inv m c n h = iprop(iprop(owns (c : Thread nD τ) accM fullShare (accAt m c (n - 1) (by omega))) ∗ (∃ r, prngReg c r)) := by
  cases n with
  | zero => exact absurd rfl hz
  | succ n => rfl

/-- The region's proof data on core `c`: the arrays as the region finds them; after the body each input's buffer at its
    block and the output's at the accumulator; the invariant above; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => accAt m c t.val t.isLt
  Φ t := inv m c t.val (Nat.le_of_lt_succ t.isLt)
  q _ := fullShare
  owed _ := 0

theorem dats_A (c : Dev nD) (w : Fin cfg0.W) : (dats m 0 c).A w = entryAt m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = accAt m c t.val t.isLt := by dsimp only [dats]

/-- Each input's current staging buffer holds its block at every point (both windows are fetched at every point). -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stW t) fullShare ((dats m 0 c).before 1 t d))
    ∗ (∃ d, owns (c : Thread nD τ) (stO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the reduction step it is at. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = inv m c (t.val + 1) t.isLt from rfl, inv_succ]
  rw [show (dats m 0 c).leavesExact 0 t = owns (c : Thread nD τ) (stX t) fullShare ((dats m 0 c).after 0 t) from by
    unfold Dat.leavesExact; rw [live0 t], after_0]
  rw [show (dats m 0 c).leavesExact 1 t = owns (c : Thread nD τ) (stW t) fullShare ((dats m 0 c).after 1 t) from by
    unfold Dat.leavesExact; rw [live1 t], after_1]
  have hN : t.val < 128 := lt_of_lt_of_eq t.isLt (show cfg0.N = 128 from N_0)
  by_cases hF : t.val % 8 = 0
  · -- the first step of a row-block: the accumulator is reset, whatever it held
    have hL : ¬t.val % 8 = 7 := by omega
    have cF : atFirst (grid0.coords t) := (atFirst_iff t).mpr hF
    have cL : ¬atLast (grid0.coords t) := fun h => hL ((atLast_iff t).mp h)
    rw [Dat.leavesExact_idle (dats m 0 c) 2 t (idle2 t cL) (noFlush2 t cL), accAt_first m c t hF]
    have hpre : (dats m 0 c).Φ t.castSucc ⊢ iprop(iprop((∃ d, owns (c : Thread nD τ) accM fullShare d)) ∗ (∃ r, prngReg c r)) := by
      rw [inv_castSucc m c t]
      by_cases hz : t.val = 0
      · rw [inv_zero m c _ _ hz, classInv_eq]
      · rw [inv_pos m c _ _ hz]; iintro ⟨HS, Hg⟩; isplitl [HS]; · iexists _; iexact HS
        iexact Hg
    iintro ⟨HΦ, Ho, ⟨%d0, H0⟩, ⟨%d1, H1⟩, ⟨%d2, H2⟩⟩
    ihave ⟨HS, Hg⟩ := hpre $$ HΦ
    iapply (step_first c (grid0.coords t) _ _ _ _ _ _ accM (Memref.isWhole_whole _) cF cL (blockAt m c 0 t) (blockAt m c 1 t) _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have hz : t.val ≠ 0 := fun h => hF (by rw [h])
    by_cases hL : t.val % 8 = 7
    · -- the last step: the accumulator is added to and copied to the output block
      have cF : ¬atFirst (grid0.coords t) := fun h => hF ((atFirst_iff t).mp h)
      have cL : atLast (grid0.coords t) := (atLast_iff t).mpr hL
      rw [show (dats m 0 c).leavesExact 2 t = owns (c : Thread nD τ) (stO t) fullShare ((dats m 0 c).after 2 t) from by
        unfold Dat.leavesExact; rw [live2 t cL], after_2]
      rw [accAt_next m c t hF, inv_castSucc m c t, inv_pos m c _ _ hz]
      iintro ⟨⟨HS, Hg⟩, Ho, ⟨%d0, H0⟩, ⟨%d1, H1⟩, ⟨%d2, H2⟩⟩
      iapply (step_last c (grid0.coords t) _ _ _ _ _ _ accM (Memref.isWhole_whole _) cF cL (blockAt m c 0 t) (blockAt m c 1 t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · -- a middle step: the accumulator is added to
      have cF : ¬atFirst (grid0.coords t) := fun h => hF ((atFirst_iff t).mp h)
      have cL : ¬atLast (grid0.coords t) := fun h => hL ((atLast_iff t).mp h)
      rw [Dat.leavesExact_idle (dats m 0 c) 2 t (idle2 t cL) (noFlush2 t cL)]
      rw [accAt_next m c t hF, inv_castSucc m c t, inv_pos m c _ _ hz]
      iintro ⟨⟨HS, Hg⟩, Ho, ⟨%d0, H0⟩, ⟨%d1, H1⟩, ⟨%d2, H2⟩⟩
      iapply (step_mid c (grid0.coords t) _ _ _ _ _ _ accM (Memref.isWhole_whole _) cF cL (blockAt m c 0 t) (blockAt m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the class's back: the accumulator's contents are forgotten. -/
theorem inv_out (c : Dev nD) : (dats m 0 c).Φ (Fin.last cfg0.N) ⊢ Pipeline.ΦA spec0 c := by
  have hN : cfg0.N = 128 := N_0
  rw [show (dats m 0 c).Φ (Fin.last cfg0.N) = inv m c (Fin.last cfg0.N).val (Nat.le_of_lt_succ (Fin.last cfg0.N).isLt) from rfl,
    inv_pos m c _ _ (by rw [Fin.val_last]; omega), classInv_eq]
  iintro ⟨HS, Hg⟩
  isplitl [HS]
  · iexists _; iexact HS
  iexact Hg

end Cert.Kernel.Around

end
-- ==== Proof.K.Later.lean ====
/-
  The later host operations of the idealized kernel program, seen from the region: the seventy-three operations after the
  K-blocked matrix product touch only unscoped TensorCore buffers, allocate nothing and write neither an array of the
  pipeline nor an argument of the program.  Hence the program reduces to the region continued by them, every argument
  array the pipeline does not stage ends as launched, and the run around the region yields the frame claim's post.
-/
import proofs.«151015_j27419071218491_1_alg».proof.Proof.K.Entry

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen
open Idealize.ShloMosaic.Pipeline (Dat Cfg)

variable {F : FTy → Type} [FloatOps F]
variable (m : (ℓ : Loc nD τ sig) → Buf (Elt F) ℓ)
variable (ρ : Dev nD → PrngReg)

/-! ## The host operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## The buffers the host operations write

Every host operation writes exactly one buffer, its result.  The results of the fifteen operations before the region and of
the seventy-three after it are listed; whether a given reference is among them is then decided on the references alone. -/

/-- The results of the fifteen operations before the region. -/
def writtenBefore : List (Ref sig .tc) :=
  [ main_v0, main_v1, main_v2, main_v3, main_cst, main_v4, main_cst_0, main_v5,
    main_v6, main_v7, main_cst_1, main_v8, main_v9, main_v10, main_v11 ]

/-- The results of the seventy-three operations after the region. -/
def writtenLater : List (Ref sig .tc) :=
  [ main_v13, main_v14, main_c, main_v15, main_v16, main_c_2, main_v17, main_v18,
    main_v19, main_v20, main_v21, main_cst_3, main_v22, main_v23, main_v24, main_v25,
    main_v26, main_v27, main_v28, main_v29, main_v30, main_call0_cst, main_call0_v0, main_v31,
    main_v32, main_c_4, main_v33, main_v34, main_c_5, main_v35, main_v36, main_v37,
    main_v38, main_v39, main_cst_6, main_v40, main_v41, main_v42, main_v43, main_v44,
    main_v45, main_v46, main_v47, main_v48, main_v49, main_call1_cst, main_call1_v0, main_v50,
    main_v51, main_c_7, main_v52, main_v53, main_c_8, main_v54, main_v55, main_v56,
    main_v57, main_v58, main_cst_9, main_v59, main_v60, main_v61, main_v62, main_v63,
    main_v64, main_v65, main_v66, main_v67, main_v68, main_v69, main_v70, main_v71,
    main_v72 ]

/-- A single result listed in `W` lies in `W` read as device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- An operation whose results all lie in `W` does not write a reference outside `W`. -/
theorem not_writes_of_sub {W : List (Ref sig .tc)} {r : Ref sig .tc} {op : HloOp τ sig (Elt F)}
    (hW : op.writes ⊆ (W.map (Proc.devRef (τ := τ) .tc)).toFinset) (hr : r ∉ W) : Proc.devRef .tc r ∉ op.writes := fun hb => by
  obtain ⟨y, hy, he⟩ := List.mem_map.mp (List.mem_toFinset.mp (hW hb))
  exact hr (Proc.devRef_injective _ he ▸ hy)

theorem hostOps0_writes : (hostOps0 : List (HloOp τ sig (Elt F))).Forall fun op =>
    op.writes ⊆ (writtenBefore.map (Proc.devRef (τ := τ) .tc)).toFinset := by
  simp only [List.Forall]
  repeat' apply And.intro
  all_goals exact single_sub (by decide)
theorem hostOps1_writes : (hostOps1 : List (HloOp τ sig (Elt F))).Forall fun op =>
    op.writes ⊆ (writtenLater.map (Proc.devRef (τ := τ) .tc)).toFinset := by
  simp only [List.Forall]
  repeat' apply And.intro
  all_goals exact single_sub (by decide)
theorem hostOps1_1_writes : (hostOps1_1 : List (HloOp τ sig (Elt F))).Forall fun op =>
    op.writes ⊆ (writtenLater.map (Proc.devRef (τ := τ) .tc)).toFinset := by
  simp only [List.Forall]
  repeat' apply And.intro
  all_goals exact single_sub (by decide)
theorem hostOps1_2_writes : (hostOps1_2 : List (HloOp τ sig (Elt F))).Forall fun op =>
    op.writes ⊆ (writtenLater.map (Proc.devRef (τ := τ) .tc)).toFinset := by
  simp only [List.Forall]
  repeat' apply And.intro
  all_goals exact single_sub (by decide)
theorem hostOps1_3_writes : (hostOps1_3 : List (HloOp τ sig (Elt F))).Forall fun op =>
    op.writes ⊆ (writtenLater.map (Proc.devRef (τ := τ) .tc)).toFinset := by
  simp only [List.Forall]
  repeat' apply And.intro
  all_goals exact single_sub (by decide)
theorem hostOps1_4_writes : (hostOps1_4 : List (HloOp τ sig (Elt F))).Forall fun op =>
    op.writes ⊆ (writtenLater.map (Proc.devRef (τ := τ) .tc)).toFinset := by
  simp only [List.Forall]
  repeat' apply And.intro
  all_goals exact single_sub (by decide)

/-- Every later operation writes a listed result only. -/
theorem later_writes : ∀ ops ∈ (later : List (List (HloOp τ sig (Elt F)))), ∀ op ∈ ops,
    op.writes ⊆ (writtenLater.map (Proc.devRef (τ := τ) .tc)).toFinset := by
  intro ops hops op hop
  simp only [later, List.mem_cons, List.mem_nil_iff, or_false] at hops
  rcases hops with rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop

/-! ## The side conditions of the run around the region -/

/-- The later operations touch unscoped TensorCore buffers only; nothing being prefetched, each such buffer is an array of
    the pipeline or a buffer that bypasses the region. -/
theorem later_sub : ∀ ops ∈ (later : List (List (HloOp τ sig (Elt F)))), ∀ op ∈ ops, op.bufs ⊆ Pipeline.tailRefs sig Pipeline.Prefetch.none spec0 := by
  rw [Pipeline.tailRefs_none spec0 launch0.win.arr_unscoped]
  intro ops hops op hop
  simp only [later, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  simp only [later, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- They write no array of the pipeline: none of the three arrays is a listed result. -/
theorem later_keeps : ∀ ops ∈ (later : List (List (HloOp τ sig (Elt F)))), ∀ op ∈ ops, ∀ w, Proc.devRef .tc (Pipeline.arrRef spec0 w) ∉ op.writes :=
  fun ops hops op hop w =>
    not_writes_of_sub (later_writes ops hops op hop) ((by decide : ∀ w, Pipeline.arrRef spec0 w ∉ writtenLater) w)

/-- The program is the fifteen earlier operations, the region, then the later stretches: holding the launch contents it
    reduces to the region continued by the later stretches, at the contents after the earlier operations. -/
theorem reduces (𝒱₀ : Variants) : Pipeline.HMainK (Ix := Unit) (Name := ℕ) (U := UR sig nD τ) (Lvl := ℕ) cfgs 0 defs₀ 𝒱₀ m (main (F := F)) (entryAt m)
    (fun _ => Pipeline.chain ((later (F := F)).map StableHlo.seq)) :=
  Pipeline.hmain_around cfgs 0 defs₀ 𝒱₀ m main [hostOps0] later (by simp only [List.Forall]; exact hostOps0_sub)
    (by simp only [List.Forall]; exact hostOps0_fresh) main_chain

/-! ## The argument arrays at the end -/

/-- A buffer that is no result of the earlier operations is entered as launched. -/
theorem entry_of_not_written (c : Dev nD) (b : Ref sig .tc) (hb : b ∉ writtenBefore) :
    entryAt m c b = m ((c : Thread nD τ).loc b) :=
  StableHlo.after_of_forall_not_mem (b := Proc.devRef .tc b) _ _ (fun op hop => by
    obtain ⟨ops, hops, hop'⟩ := List.mem_flatten.mp hop
    rw [List.mem_singleton] at hops; subst hops
    exact not_writes_of_sub ((List.forall_iff_forall_mem.mp hostOps0_writes) op hop') hb)

/-- A buffer that is no array of the pipeline and no result of the later operations ends as it was entered. -/
theorem after_of_not_written (dats : (p : Fin 1) → (c : Dev nD) → Dat τ (Elt F) Unit ℕ (UR sig nD τ) ℕ (cfgs p) c) (c : Dev nD)
    (b : Ref sig .tc) (hb : b ∉ writtenLater) (ha : ∀ w, Pipeline.arrRef spec0 w ≠ b) :
    Pipeline.afterTail₀ cfgs dats 0 (entry m) later c b = entryAt m c b := by
  unfold Pipeline.afterTail₀
  rw [StableHlo.after_of_forall_not_mem (b := Proc.devRef .tc b) _ _ (fun op hop => ?_),
    Pipeline.withArrays_of_ne _ c (entry m c) _ b ha]
  obtain ⟨ops, hops, hop'⟩ := List.mem_flatten.mp hop
  exact not_writes_of_sub (later_writes ops hops op hop') hb

/-- an argument array the pipeline does not stage is, after the later operations, what it was at launch -/
theorem arg1_after (dats : (p : Fin 1) → (c : Dev nD) → Dat τ (Elt F) Unit ℕ (UR sig nD τ) ℕ (cfgs p) c) (c : Dev nD) :
    Pipeline.afterTail₀ cfgs dats 0 (entry m) later c main_arg1 = m ((c : Thread nD τ).loc main_arg1) :=
  (after_of_not_written m dats c main_arg1 (by decide) (by decide)).trans (entry_of_not_written m c main_arg1 (by decide))
/-- an argument array the pipeline does not stage is, after the later operations, what it was at launch -/
theorem arg2_after (dats : (p : Fin 1) → (c : Dev nD) → Dat τ (Elt F) Unit ℕ (UR sig nD τ) ℕ (cfgs p) c) (c : Dev nD) :
    Pipeline.afterTail₀ cfgs dats 0 (entry m) later c main_arg2 = m ((c : Thread nD τ).loc main_arg2) :=
  (after_of_not_written m dats c main_arg2 (by decide) (by decide)).trans (entry_of_not_written m c main_arg2 (by decide))
/-- an argument array the pipeline does not stage is, after the later operations, what it was at launch -/
theorem arg3_after (dats : (p : Fin 1) → (c : Dev nD) → Dat τ (Elt F) Unit ℕ (UR sig nD τ) ℕ (cfgs p) c) (c : Dev nD) :
    Pipeline.afterTail₀ cfgs dats 0 (entry m) later c main_arg3 = m ((c : Thread nD τ).loc main_arg3) :=
  (after_of_not_written m dats c main_arg3 (by decide) (by decide)).trans (entry_of_not_written m c main_arg3 (by decide))
/-- an argument array the pipeline does not stage is, after the later operations, what it was at launch -/
theorem arg4_after (dats : (p : Fin 1) → (c : Dev nD) → Dat τ (Elt F) Unit ℕ (UR sig nD τ) ℕ (cfgs p) c) (c : Dev nD) :
    Pipeline.afterTail₀ cfgs dats 0 (entry m) later c main_arg4 = m ((c : Thread nD τ).loc main_arg4) :=
  (after_of_not_written m dats c main_arg4 (by decide) (by decide)).trans (entry_of_not_written m c main_arg4 (by decide))
/-- an argument array the pipeline does not stage is, after the later operations, what it was at launch -/
theorem arg5_after (dats : (p : Fin 1) → (c : Dev nD) → Dat τ (Elt F) Unit ℕ (UR sig nD τ) ℕ (cfgs p) c) (c : Dev nD) :
    Pipeline.afterTail₀ cfgs dats 0 (entry m) later c main_arg5 = m ((c : Thread nD τ).loc main_arg5) :=
  (after_of_not_written m dats c main_arg5 (by decide) (by decide)).trans (entry_of_not_written m c main_arg5 (by decide))
/-- an argument array the pipeline does not stage is, after the later operations, what it was at launch -/
theorem arg6_after (dats : (p : Fin 1) → (c : Dev nD) → Dat τ (Elt F) Unit ℕ (UR sig nD τ) ℕ (cfgs p) c) (c : Dev nD) :
    Pipeline.afterTail₀ cfgs dats 0 (entry m) later c main_arg6 = m ((c : Thread nD τ).loc main_arg6) :=
  (after_of_not_written m dats c main_arg6 (by decide) (by decide)).trans (entry_of_not_written m c main_arg6 (by decide))
/-- an argument array the pipeline does not stage is, after the later operations, what it was at launch -/
theorem arg7_after (dats : (p : Fin 1) → (c : Dev nD) → Dat τ (Elt F) Unit ℕ (UR sig nD τ) ℕ (cfgs p) c) (c : Dev nD) :
    Pipeline.afterTail₀ cfgs dats 0 (entry m) later c main_arg7 = m ((c : Thread nD τ).loc main_arg7) :=
  (after_of_not_written m dats c main_arg7 (by decide) (by decide)).trans (entry_of_not_written m c main_arg7 (by decide))
/-- an argument array the pipeline does not stage is, after the later operations, what it was at launch -/
theorem arg8_after (dats : (p : Fin 1) → (c : Dev nD) → Dat τ (Elt F) Unit ℕ (UR sig nD τ) ℕ (cfgs p) c) (c : Dev nD) :
    Pipeline.afterTail₀ cfgs dats 0 (entry m) later c main_arg8 = m ((c : Thread nD τ).loc main_arg8) :=
  (after_of_not_written m dats c main_arg8 (by decide) (by decide)).trans (entry_of_not_written m c main_arg8 (by decide))
/-- an argument array the pipeline does not stage is, after the later operations, what it was at launch -/
theorem arg9_after (dats : (p : Fin 1) → (c : Dev nD) → Dat τ (Elt F) Unit ℕ (UR sig nD τ) ℕ (cfgs p) c) (c : Dev nD) :
    Pipeline.afterTail₀ cfgs dats 0 (entry m) later c main_arg9 = m ((c : Thread nD τ).loc main_arg9) :=
  (after_of_not_written m dats c main_arg9 (by decide) (by decide)).trans (entry_of_not_written m c main_arg9 (by decide))
/-- an argument array the pipeline does not stage is, after the later operations, what it was at launch -/
theorem arg10_after (dats : (p : Fin 1) → (c : Dev nD) → Dat τ (Elt F) Unit ℕ (UR sig nD τ) ℕ (cfgs p) c) (c : Dev nD) :
    Pipeline.afterTail₀ cfgs dats 0 (entry m) later c main_arg10 = m ((c : Thread nD τ).loc main_arg10) :=
  (after_of_not_written m dats c main_arg10 (by decide) (by decide)).trans (entry_of_not_written m c main_arg10 (by decide))
/-- an argument array the pipeline does not stage is, after the later operations, what it was at launch -/
theorem arg11_after (dats : (p : Fin 1) → (c : Dev nD) → Dat τ (Elt F) Unit ℕ (UR sig nD τ) ℕ (cfgs p) c) (c : Dev nD) :
    Pipeline.afterTail₀ cfgs dats 0 (entry m) later c main_arg11 = m ((c : Thread nD τ).loc main_arg11) :=
  (after_of_not_written m dats c main_arg11 (by decide) (by decide)).trans (entry_of_not_written m c main_arg11 (by decide))
/-- an argument array the pipeline does not stage is, after the later operations, what it was at launch -/
theorem arg12_after (dats : (p : Fin 1) → (c : Dev nD) → Dat τ (Elt F) Unit ℕ (UR sig nD τ) ℕ (cfgs p) c) (c : Dev nD) :
    Pipeline.afterTail₀ cfgs dats 0 (entry m) later c main_arg12 = m ((c : Thread nD τ).loc main_arg12) :=
  (after_of_not_written m dats c main_arg12 (by decide) (by decide)).trans (entry_of_not_written m c main_arg12 (by decide))

/-- The first window's array is entered as launched. -/
theorem arg0_entry (c : Dev nD) : entryAt m c main_arg0 = m ((c : Thread nD τ).loc main_arg0) :=
  entry_of_not_written m c main_arg0 (by decide)

/-- the frame claim's post from the launch theorem's post -/
theorem frame_of_run (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).1 0).trans (((dats 0 c).arrAt_in 0 rfl _).trans ((hA c 0).trans (arg0_entry m c))),
     ((h c).2 main_arg1 (Pipeline.mem_restRefs_of main_arg1 (by decide) (by decide))).trans (arg1_after m dats c),
     ((h c).2 main_arg2 (Pipeline.mem_restRefs_of main_arg2 (by decide) (by decide))).trans (arg2_after m dats c),
     ((h c).2 main_arg3 (Pipeline.mem_restRefs_of main_arg3 (by decide) (by decide))).trans (arg3_after m dats c),
     ((h c).2 main_arg4 (Pipeline.mem_restRefs_of main_arg4 (by decide) (by decide))).trans (arg4_after m dats c),
     ((h c).2 main_arg5 (Pipeline.mem_restRefs_of main_arg5 (by decide) (by decide))).trans (arg5_after m dats c),
     ((h c).2 main_arg6 (Pipeline.mem_restRefs_of main_arg6 (by decide) (by decide))).trans (arg6_after m dats c),
     ((h c).2 main_arg7 (Pipeline.mem_restRefs_of main_arg7 (by decide) (by decide))).trans (arg7_after m dats c),
     ((h c).2 main_arg8 (Pipeline.mem_restRefs_of main_arg8 (by decide) (by decide))).trans (arg8_after m dats c),
     ((h c).2 main_arg9 (Pipeline.mem_restRefs_of main_arg9 (by decide) (by decide))).trans (arg9_after m dats c),
     ((h c).2 main_arg10 (Pipeline.mem_restRefs_of main_arg10 (by decide) (by decide))).trans (arg10_after m dats c),
     ((h c).2 main_arg11 (Pipeline.mem_restRefs_of main_arg11 (by decide) (by decide))).trans (arg11_after m dats c),
     ((h c).2 main_arg12 (Pipeline.mem_restRefs_of main_arg12 (by decide) (by decide))).trans (arg12_after m dats c)⟩) h

/-- the same post with the result buffer beside the arguments: the last operation's result bypasses the region, so it ends at
    what the later operations compute from the region's exit -/
theorem result_and_frame_of_run (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) later))) :
    θ_run defs (onTc (τ := τ) (main (F := F))) ⟨m, fun _ => 0, ρ⟩ (fun r => ∀ c : Dev nD,
      r.2.mem ((c.tc : Thread nD τ).loc main_v72) = Pipeline.afterTail₀ cfgs dats 0 (entry m) later c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c).2 main_v72 (Pipeline.mem_restRefs_of main_v72 (by decide) (by decide)),
     ((h c).1 0).trans (((dats 0 c).arrAt_in 0 rfl _).trans ((hA c 0).trans (arg0_entry m c))),
     ((h c).2 main_arg1 (Pipeline.mem_restRefs_of main_arg1 (by decide) (by decide))).trans (arg1_after m dats c),
     ((h c).2 main_arg2 (Pipeline.mem_restRefs_of main_arg2 (by decide) (by decide))).trans (arg2_after m dats c),
     ((h c).2 main_arg3 (Pipeline.mem_restRefs_of main_arg3 (by decide) (by decide))).trans (arg3_after m dats c),
     ((h c).2 main_arg4 (Pipeline.mem_restRefs_of main_arg4 (by decide) (by decide))).trans (arg4_after m dats c),
     ((h c).2 main_arg5 (Pipeline.mem_restRefs_of main_arg5 (by decide) (by decide))).trans (arg5_after m dats c),
     ((h c).2 main_arg6 (Pipeline.mem_restRefs_of main_arg6 (by decide) (by decide))).trans (arg6_after m dats c),
     ((h c).2 main_arg7 (Pipeline.mem_restRefs_of main_arg7 (by decide) (by decide))).trans (arg7_after m dats c),
     ((h c).2 main_arg8 (Pipeline.mem_restRefs_of main_arg8 (by decide) (by decide))).trans (arg8_after m dats c),
     ((h c).2 main_arg9 (Pipeline.mem_restRefs_of main_arg9 (by decide) (by decide))).trans (arg9_after m dats c),
     ((h c).2 main_arg10 (Pipeline.mem_restRefs_of main_arg10 (by decide) (by decide))).trans (arg10_after m dats c),
     ((h c).2 main_arg11 (Pipeline.mem_restRefs_of main_arg11 (by decide) (by decide))).trans (arg11_after m dats c),
     ((h c).2 main_arg12 (Pipeline.mem_restRefs_of main_arg12 (by decide) (by decide))).trans (arg12_after m dats c)⟩) h

end Cert.Kernel.Around

end
-- ==== Proof.K.Frame.lean ====
/-
  The run of the whole program and its frame.  With the region's proof data (the accumulator carried point to point), the
  body obligation, and the facts about the operations after the region (they touch only the pipeline's arrays and the
  buffers that bypass it, allocate nothing, and write none of the pipeline's arrays), every weakly fair execution of @main
  ends with the pipeline's arrays at what the proof data computes and every other buffer as the later operations leave it.
  The thirteen argument arrays end as they were launched: x is an input window's array, the other twelve bypass the region
  and no operation writes them.
-/
import proofs.«151015_j27419071218491_1_alg».proof.Proof.K.Carried
import proofs.«151015_j27419071218491_1_alg».proof.Proof.K.Later

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

set_option backward.isDefEq.respectTransparency.types false in
/-- At the compiled mesh, for any values, from any memory with zero counters: every weakly fair execution of @main
    terminates, every array of the pipeline ends at what the proof data computes, and every other unscoped buffer ends as
    the operations after the region leave it. -/
theorem run_main : θ_run defs (onTc (τ := τ) (main (F := F))) (s₀ m ρ)
    (Pipeline.FramePost cfgs (dats m) 0 (Pipeline.afterTail₀ cfgs (dats m) 0 (entry m) later)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := later) (hsub := later_sub) (hfresh := later_fresh) (hkeep := later_keeps)
    (hmain := reduces m Variants.none) (hA := dats_A m) (hin := inv_in m) (hout := inv_out m)

/-- The frame: the program runs to the end, faults nowhere, and leaves its thirteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of_run m ρ (dats m) (dats_A m) (run_main m ρ)

end Cert.Kernel.Around

end
-- ==== Proof.KI.Entry.lean ====
/-
  The idealized kernel program around its one region.  @main is fifteen host operations (the two rows of the edge list,
  the in-degree of every node by a scatter of ones, its floor at one, the weight matrix [W1l | W1r] side by side), the
  K-blocked matrix product as a pipeline over a 16 x 8 grid, and five later stretches of host operations (seventy-three in
  all: the three graph-convolution layers and the output head).  Named here: the buffer contents the region is entered
  with, the later stretches as one list, and the block of a window's array that a grid point works on.
-/
import proofs.«151015_j27419071218491_1_alg».proof.Proof.Gen.KernelIdeal.Launch
import proofs.«151015_j27419071218491_1_alg».proof.Proof.Gen.KernelIdeal.Skeleton
import proofs.«151015_j27419071218491_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]
variable (m : (ℓ : Loc nD τ sig) → Buf (Elt F) ℓ)

/-- What core `c`'s buffers hold when the region is entered: the launch contents after the fifteen earlier operations. -/
abbrev entry (c : Dev nD) : Valuation τ sig (Elt F) := StableHlo.after (List.flatten [hostOps0]) (fun b => m (c, b))

/-- The same, read at one TensorCore buffer. -/
abbrev entryAt (c : Dev nD) (b : Ref sig .tc) : Buf (Elt F) ((c : Thread nD τ).loc b) := entry m c (Proc.devRef .tc b)

/-- The host operations after the region, stretch by stretch. -/
abbrev later : List (List (HloOp τ sig (Elt F))) := [hostOps1, hostOps1_1, hostOps1_2, hostOps1_3, hostOps1_4]

/-- The block of window `w`'s array that grid point `t` works on, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

end Cert.KernelIdeal.Around

end
-- ==== Proof.KI.Steps.lean ====
/-
  One grid point of the K-blocked product, run on whole staging buffers: the body loads the point's block of x
  (1024 x 2048) and of the weights (2048 x 32), adds their product to the accumulator, and leaves both input blocks as it
  found them.  Three cases by the reduction step: at step 0 the accumulator is first set to zero, so it ends at the product
  alone; at steps 1 to 6 it ends at its earlier contents plus the product; at step 7 the same, and the new accumulator is
  also copied into the output block.  Each case is stated with the accumulator's contents written out (the body's payload
  `k0_pay2` of the two blocks and the earlier accumulator, `k0_pay1` being the zero block), so that what the accumulator
  holds after every point is a plain recursion on the point.
-/
import proofs.«151015_j27419071218491_1_alg».proof.Proof.Gen.KernelIdeal.Launch
import proofs.«151015_j27419071218491_1_alg».proof.Proof.Gen.KernelIdeal.Skeleton
import proofs.«151015_j27419071218491_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ (UR sig nD τ) ℕ

/-- The first branch's condition (the reduction step is 0), as the body computes it from the grid coordinates. -/
abbrev atFirst (i : grid0.Coords) : Prop :=
  (Scalar.cmpi .ne (Scalar.extui (Scalar.cmpi .eq (BitVec.ofNat 32 (i 1).val) 0#32)) 0#32) = 1#1
/-- The second branch's condition (the reduction step is 7). -/
abbrev atLast (i : grid0.Coords) : Prop := k0_cond2 i = 1#1

/-- The zero offsets of a whole-block rectangle, however the two zeros are spelt. -/
theorem zero_off (S : Shape) (h : S.rank = 2) : ((![0, 0] : Fin 2 → Nat) ∘ Fin.cast h) = fun _ => 0 := by
  funext a; simp only [Function.comp]; generalize Fin.cast h a = b; fin_cases b <;> rfl

theorem z32 : (![0, 0] : Fin S1024x32.rank → Nat) = fun _ => 0 := by funext a; fin_cases a <;> rfl
theorem zX : (![0, 0] : Fin S1024x2048.rank → Nat) = fun _ => 0 := by funext a; fin_cases a <;> rfl
theorem zW : (![0, 0] : Fin S2048x32.rank → Nat) = fun _ => 0 := by funext a; fin_cases a <;> rfl

set_option maxHeartbeats 2000000 in
/-- Steps 1 to 6: the accumulator goes from `acc` to `k0_pay2 x w acc`; the output block is not touched. -/
theorem step_mid (c : Dev nD) (i : grid0.Coords)
    (aX : Memref sig .tc .vmem S1024x2048 .f32) (hX : aX.IsWhole) (aW : Memref sig .tc .vmem S2048x32 .f32) (hW : aW.IsWhole)
    (aO : Memref sig .tc .vmem S1024x32 .f32) (hO : aO.IsWhole) (aA : Memref sig .tc .vmem S1024x32 .f32) (hA : aA.IsWhole)
    (h1 : ¬atFirst i) (h2 : ¬atLast i)
    (x : Vec F S1024x2048 .f32) (w : Vec F S2048x32 .f32) (o : Vec F S1024x32 .f32) (acc : Vec F S1024x32 .f32)
    (E : Set ℕ) (K : PUnit → sProp 𝕄) :
    iprop(owns (c : Thread nD τ) aX fullShare x ∗ owns (c : Thread nD τ) aW fullShare w ∗ owns (c : Thread nD τ) aO fullShare o
        ∗ owns (c : Thread nD τ) aA fullShare acc
        ∗ (iprop(owns (c : Thread nD τ) aX fullShare x ∗ owns (c : Thread nD τ) aW fullShare w ∗ owns (c : Thread nD τ) aO fullShare o
            ∗ owns (c : Thread nD τ) aA fullShare (k0_pay2 x w acc)) -∗ K ⟨⟩))
      ⊢ wp frame (wpE (defs₀ (F := F)) Variants.none c none) E (cc0__matmul_kernel i aX hX aW hW aO hO aA hA) K := by
  simp only [cc0__matmul_kernel_eq_skeleton]; unfold cc0__matmul_kernel_skel
  unfold owns
  iintro ⟨⟨%fx, %hfx, HX⟩, ⟨%fw, %hfw, HW⟩, ⟨%fO, %hfo, HO⟩, ⟨%fa, %hfa, HA⟩, Hk⟩
  obtain rfl := hX.eq_unread hfx; obtain rfl := hW.eq_unread hfw; obtain rfl := hA.eq_unread hfa
  sl_exec (disch := first | exact h1 | exact h2)
  sl_step
  iapply Hk
  isplitl [HX]
  · iexists _; isplitr; · ipureintro; exact hX.read_unread _
    iexact HX
  isplitl [HW]
  · iexists _; isplitr; · ipureintro; exact hW.read_unread _
    iexact HW
  isplitl [HO]
  · iexists fO; isplitr; · ipureintro; exact hfo
    iexact HO
  iexists _; isplitr
  swap; · iexact HA
  ipureintro
  sl_unfold_words
  rw [View.read_writes_eq_canon _ _ _ (fun y => ⟨_, List.mem_cons.mpr (Or.inl rfl), View.mem_set_unit_zero z32 Cert.KernelIdeal.Facts₀.inb_S1024x32_S1024x32_0_0 y⟩), View.canon_cons_unit_zero z32]
  simp only [View.readAt_eq_ld, View.readCov_unit_zero (S := S1024x32) _ z32, hX.read_unread, hW.read_unread, hA.read_unread,
    View.ld_unit_zero (S := S1024x2048) zX, View.ld_unit_zero (S := S2048x32) zW, View.ld_unit_zero (S := S1024x32) z32]

set_option maxHeartbeats 2000000 in
/-- Step 0: whatever the accumulator held, it ends at `k0_pay2 x w k0_pay1`; the output block is not touched. -/
theorem step_first (c : Dev nD) (i : grid0.Coords)
    (aX : Memref sig .tc .vmem S1024x2048 .f32) (hX : aX.IsWhole) (aW : Memref sig .tc .vmem S2048x32 .f32) (hW : aW.IsWhole)
    (aO : Memref sig .tc .vmem S1024x32 .f32) (hO : aO.IsWhole) (aA : Memref sig .tc .vmem S1024x32 .f32) (hA : aA.IsWhole)
    (h1 : atFirst i) (h2 : ¬atLast i)
    (x : Vec F S1024x2048 .f32) (w : Vec F S2048x32 .f32) (o : Vec F S1024x32 .f32)
    (E : Set ℕ) (K : PUnit → sProp 𝕄) :
    iprop(owns (c : Thread nD τ) aX fullShare x ∗ owns (c : Thread nD τ) aW fullShare w ∗ owns (c : Thread nD τ) aO fullShare o
        ∗ (∃ d, owns (c : Thread nD τ) aA fullShare d)
        ∗ (iprop(owns (c : Thread nD τ) aX fullShare x ∗ owns (c : Thread nD τ) aW fullShare w ∗ owns (c : Thread nD τ) aO fullShare o
            ∗ owns (c : Thread nD τ) aA fullShare (k0_pay2 x w (k0_pay1 (F := F)))) -∗ K ⟨⟩))
      ⊢ wp frame (wpE (defs₀ (F := F)) Variants.none c none) E (cc0__matmul_kernel i aX hX aW hW aO hO aA hA) K := by
  simp only [cc0__matmul_kernel_eq_skeleton]; unfold cc0__matmul_kernel_skel
  unfold owns
  iintro ⟨⟨%fx, %hfx, HX⟩, ⟨%fw, %hfw, HW⟩, ⟨%fO, %hfo, HO⟩, ⟨%dA, %fa, -, HA⟩, Hk⟩
  obtain rfl := hX.eq_unread hfx; obtain rfl := hW.eq_unread hfw
  sl_exec (disch := first | exact h1 | exact h2)
  sl_step
  iapply Hk
  isplitl [HX]
  · iexists _; isplitr; · ipureintro; exact hX.read_unread _
    iexact HX
  isplitl [HW]
  · iexists _; isplitr; · ipureintro; exact hW.read_unread _
    iexact HW
  isplitl [HO]
  · iexists fO; isplitr; · ipureintro; exact hfo
    iexact HO
  iexists _; isplitr
  swap; · iexact HA
  ipureintro
  sl_unfold_words
  rw [View.read_writes_eq_canon _ _ _ (fun y => ⟨_, List.mem_cons.mpr (Or.inl rfl), View.mem_set_unit_zero z32 Cert.KernelIdeal.Facts₀.inb_S1024x32_S1024x32_0_0 y⟩), View.canon_cons_unit_zero z32]
  simp only [View.readAt_eq_ld, View.readCov_unit_zero (S := S1024x32) _ z32, hX.read_unread, hW.read_unread,
    View.ld_unit_zero (S := S1024x2048) zX, View.ld_unit_zero (S := S2048x32) zW, View.ld_unit_zero (S := S1024x32) z32]

set_option maxHeartbeats 2000000 in
/-- Step 7: the accumulator goes from `acc` to `k0_pay2 x w acc`, and the output block ends at the same. -/
theorem step_last (c : Dev nD) (i : grid0.Coords)
    (aX : Memref sig .tc .vmem S1024x2048 .f32) (hX : aX.IsWhole) (aW : Memref sig .tc .vmem S2048x32 .f32) (hW : aW.IsWhole)
    (aO : Memref sig .tc .vmem S1024x32 .f32) (hO : aO.IsWhole) (aA : Memref sig .tc .vmem S1024x32 .f32) (hA : aA.IsWhole)
    (h1 : ¬atFirst i) (h2 : atLast i)
    (x : Vec F S1024x2048 .f32) (w : Vec F S2048x32 .f32) (acc : Vec F S1024x32 .f32)
    (E : Set ℕ) (K : PUnit → sProp 𝕄) :
    iprop(owns (c : Thread nD τ) aX fullShare x ∗ owns (c : Thread nD τ) aW fullShare w ∗ (∃ d, owns (c : Thread nD τ) aO fullShare d)
        ∗ owns (c : Thread nD τ) aA fullShare acc
        ∗ (iprop(owns (c : Thread nD τ) aX fullShare x ∗ owns (c : Thread nD τ) aW fullShare w ∗ owns (c : Thread nD τ) aO fullShare (k0_pay2 x w acc)
            ∗ owns (c : Thread nD τ) aA fullShare (k0_pay2 x w acc)) -∗ K ⟨⟩))
      ⊢ wp frame (wpE (defs₀ (F := F)) Variants.none c none) E (cc0__matmul_kernel i aX hX aW hW aO hO aA hA) K := by
  simp only [cc0__matmul_kernel_eq_skeleton]; unfold cc0__matmul_kernel_skel
  unfold owns
  iintro ⟨⟨%fx, %hfx, HX⟩, ⟨%fw, %hfw, HW⟩, ⟨%dO, %fO, -, HO⟩, ⟨%fa, %hfa, HA⟩, Hk⟩
  obtain rfl := hX.eq_unread hfx; obtain rfl := hW.eq_unread hfw; obtain rfl := hA.eq_unread hfa
  sl_exec (disch := first | exact h1 | exact h2)
  sl_step
  iapply Hk
  isplitl [HX]
  · iexists _; isplitr; · ipureintro; exact hX.read_unread _
    iexact HX
  isplitl [HW]
  · iexists _; isplitr; · ipureintro; exact hW.read_unread _
    iexact HW
  isplitl [HO]
  · iexists _; isplitr
    swap; · iexact HO
    ipureintro
    sl_unfold_words
    rw [View.read_writes_eq_canon _ _ _ (fun y => ⟨_, List.mem_cons.mpr (Or.inl rfl), View.mem_set_unit_zero z32 Cert.KernelIdeal.Facts₀.inb_S1024x32_S1024x32_0_0 y⟩), View.canon_cons_unit_zero z32]
    simp only [View.readAt_eq_ld, View.readCov_unit_zero (S := S1024x32) _ z32, hX.read_unread, hW.read_unread, hA.read_unread,
      View.ld_unit_zero (S := S1024x2048) zX, View.ld_unit_zero (S := S2048x32) zW, View.ld_unit_zero (S := S1024x32) z32]
  iexists _; isplitr
  swap; · iexact HA
  ipureintro
  sl_unfold_words
  rw [View.read_writes_eq_canon _ _ _ (fun y => ⟨_, List.mem_cons.mpr (Or.inl rfl), View.mem_set_unit_zero z32 Cert.KernelIdeal.Facts₀.inb_S1024x32_S1024x32_0_0 y⟩), View.canon_cons_unit_zero z32]
  simp only [View.readAt_eq_ld, View.readCov_unit_zero (S := S1024x32) _ z32, hX.read_unread, hW.read_unread, hA.read_unread,
    View.ld_unit_zero (S := S1024x2048) zX, View.ld_unit_zero (S := S2048x32) zW, View.ld_unit_zero (S := S1024x32) z32]

end Cert.KernelIdeal.Around

end
-- ==== Proof.KI.Cases.lean ====
/-
  The body's two branches, read over the 16 x 8 grid (point t is row-block t / 8, reduction step t % 8): the accumulator is
  reset at step 0 and copied to the output block at step 7.  So the output window is idle at every step but the last of a
  row-block, and is written back exactly there.  Also named: the staging memrefs a point is called with, the accumulator's
  memref, and the region's class invariant with the accumulator spelt out.
-/
import proofs.«151015_j27419071218491_1_alg».proof.Proof.KI.Entry
import proofs.«151015_j27419071218491_1_alg».proof.Proof.KI.Steps
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem atFirst_iff : ∀ t : Fin cfg0.N, atFirst (grid0.coords t) ↔ t.val % 8 = 0 :=
  (by decide +kernel : ∀ t : Fin grid0.N, atFirst (grid0.coords t) ↔ t.val % 8 = 0)
theorem atLast_iff : ∀ t : Fin cfg0.N, atLast (grid0.coords t) ↔ t.val % 8 = 7 :=
  (by decide +kernel : ∀ t : Fin grid0.N, atLast (grid0.coords t) ↔ t.val % 8 = 7)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- Off the last step the output window is idle and is not written back; at the last step it is live. -/
theorem idle2 : ∀ t : Fin cfg0.N, ¬atLast (grid0.coords t) → cfg0.idle 2 (grid0.coords t) = true := by decide +kernel
theorem noFlush2 : ∀ t : Fin cfg0.N, ¬atLast (grid0.coords t) → (cfg0.win 2).flush t = false := by decide +kernel
theorem live2 : ∀ t : Fin cfg0.N, atLast (grid0.coords t) → cfg0.idle 2 (grid0.coords t) = false := by decide +kernel

/-- The staging memrefs point `t` is called with, and that they are whole buffers. -/
abbrev stX (t : Fin cfg0.N) : Memref sig .tc .vmem S1024x2048 .f32 := win0_0.stage (cfg0.slots t 0)
abbrev stX_whole (t : Fin cfg0.N) : (stX t).IsWhole := hstage0_0 ((cfg0.slots t 0).cast nbuf0_0)
abbrev stW (t : Fin cfg0.N) : Memref sig .tc .vmem S2048x32 .f32 := win0_1.stage (cfg0.slots t 1)
abbrev stW_whole (t : Fin cfg0.N) : (stW t).IsWhole := hstage0_1 ((cfg0.slots t 1).cast nbuf0_1)
abbrev stO (t : Fin cfg0.N) : Memref sig .tc .vmem S1024x32 .f32 := win0_2.stage (cfg0.slots t 2)
abbrev stO_whole (t : Fin cfg0.N) : (stO t).IsWhole := hstage0_2 ((cfg0.slots t 2).cast nbuf0_2)
/-- The accumulator: a scratch buffer of the kernel's own, passed beside the windows. -/
abbrev accM : Memref sig .tc .vmem S1024x32 .f32 := Memref.whole cc0_scratch0

/-- The class invariant of the region, the accumulator owned at some contents and the generator register at some state. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Around

end
-- ==== Proof.KI.Carried.lean ====
/-
  What the accumulator holds after every grid point, and the region's proof data built on it.  Within a row-block
  (eight consecutive points) the accumulator after step k is the body's payload of the step's two blocks and of what step
  k - 1 left, the zero block standing for "what step -1 left" at k = 0: a recursion on the point.  The output window's
  block is written back only at step 7, where it is that same accumulator.  The body obligation follows from the three
  runs of one point, the invariant carrying the accumulator from each point to the next.
-/
import proofs.«151015_j27419071218491_1_alg».proof.Proof.KI.Cases

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after point `n`. -/
def accAt (c : Dev nD) : (n : ℕ) → n < cfg0.N → Vec F S1024x32 .f32
  | 0, hn => k0_pay2 (blockAt m c 0 ⟨0, hn⟩) (blockAt m c 1 ⟨0, hn⟩) (k0_pay1 (F := F))
  | n + 1, hn =>
    if (n + 1) % 8 = 0 then k0_pay2 (blockAt m c 0 ⟨n + 1, hn⟩) (blockAt m c 1 ⟨n + 1, hn⟩) (k0_pay1 (F := F))
    else k0_pay2 (blockAt m c 0 ⟨n + 1, hn⟩) (blockAt m c 1 ⟨n + 1, hn⟩) (accAt c n (Nat.lt_of_succ_lt hn))

/-- At the first step of a row-block the accumulator is the product alone (over the zero block). -/
theorem accAt_first (c : Dev nD) (t : Fin cfg0.N) (h : t.val % 8 = 0) :
    accAt m c t.val t.isLt = k0_pay2 (blockAt m c 0 t) (blockAt m c 1 t) (k0_pay1 (F := F)) := by
  obtain ⟨n, hn⟩ := t
  cases n with
  | zero => rfl
  | succ n => exact (if_pos h).trans rfl

/-- At a later step it is the product added to what the point before left. -/
theorem accAt_next (c : Dev nD) (t : Fin cfg0.N) (h : ¬t.val % 8 = 0) :
    accAt m c t.val t.isLt = k0_pay2 (blockAt m c 0 t) (blockAt m c 1 t)
      (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The invariant before point `n`: before the first point the class's (the accumulator at anything); afterwards the
    accumulator at what the point before left, and the generator register at some state. -/
def inv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) accM fullShare (accAt m c n hn)) ∗ (∃ r, prngReg c r)) := rfl
theorem inv_pos (c : Dev nD) (n : ℕ) (h : n ≤ cfg0.N) (hz : n ≠ 0) :
    inv m c n h = iprop(iprop(owns (c : Thread nD τ) accM fullShare (accAt m c (n - 1) (by omega))) ∗ (∃ r, prngReg c r)) := by
  cases n with
  | zero => exact absurd rfl hz
  | succ n => rfl

/-- The region's proof data on core `c`: the arrays as the region finds them; after the body each input's buffer at its
    block and the output's at the accumulator; the invariant above; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => accAt m c t.val t.isLt
  Φ t := inv m c t.val (Nat.le_of_lt_succ t.isLt)
  q _ := fullShare
  owed _ := 0

theorem dats_A (c : Dev nD) (w : Fin cfg0.W) : (dats m 0 c).A w = entryAt m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = accAt m c t.val t.isLt := by dsimp only [dats]

/-- Each input's current staging buffer holds its block at every point (both windows are fetched at every point). -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stW t) fullShare ((dats m 0 c).before 1 t d))
    ∗ (∃ d, owns (c : Thread nD τ) (stO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the reduction step it is at. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = inv m c (t.val + 1) t.isLt from rfl, inv_succ]
  rw [show (dats m 0 c).leavesExact 0 t = owns (c : Thread nD τ) (stX t) fullShare ((dats m 0 c).after 0 t) from by
    unfold Dat.leavesExact; rw [live0 t], after_0]
  rw [show (dats m 0 c).leavesExact 1 t = owns (c : Thread nD τ) (stW t) fullShare ((dats m 0 c).after 1 t) from by
    unfold Dat.leavesExact; rw [live1 t], after_1]
  have hN : t.val < 128 := lt_of_lt_of_eq t.isLt (show cfg0.N = 128 from N_0)
  by_cases hF : t.val % 8 = 0
  · -- the first step of a row-block: the accumulator is reset, whatever it held
    have hL : ¬t.val % 8 = 7 := by omega
    have cF : atFirst (grid0.coords t) := (atFirst_iff t).mpr hF
    have cL : ¬atLast (grid0.coords t) := fun h => hL ((atLast_iff t).mp h)
    rw [Dat.leavesExact_idle (dats m 0 c) 2 t (idle2 t cL) (noFlush2 t cL), accAt_first m c t hF]
    have hpre : (dats m 0 c).Φ t.castSucc ⊢ iprop(iprop((∃ d, owns (c : Thread nD τ) accM fullShare d)) ∗ (∃ r, prngReg c r)) := by
      rw [inv_castSucc m c t]
      by_cases hz : t.val = 0
      · rw [inv_zero m c _ _ hz, classInv_eq]
      · rw [inv_pos m c _ _ hz]; iintro ⟨HS, Hg⟩; isplitl [HS]; · iexists _; iexact HS
        iexact Hg
    iintro ⟨HΦ, Ho, ⟨%d0, H0⟩, ⟨%d1, H1⟩, ⟨%d2, H2⟩⟩
    ihave ⟨HS, Hg⟩ := hpre $$ HΦ
    iapply (step_first c (grid0.coords t) _ _ _ _ _ _ accM (Memref.isWhole_whole _) cF cL (blockAt m c 0 t) (blockAt m c 1 t) _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have hz : t.val ≠ 0 := fun h => hF (by rw [h])
    by_cases hL : t.val % 8 = 7
    · -- the last step: the accumulator is added to and copied to the output block
      have cF : ¬atFirst (grid0.coords t) := fun h => hF ((atFirst_iff t).mp h)
      have cL : atLast (grid0.coords t) := (atLast_iff t).mpr hL
      rw [show (dats m 0 c).leavesExact 2 t = owns (c : Thread nD τ) (stO t) fullShare ((dats m 0 c).after 2 t) from by
        unfold Dat.leavesExact; rw [live2 t cL], after_2]
      rw [accAt_next m c t hF, inv_castSucc m c t, inv_pos m c _ _ hz]
      iintro ⟨⟨HS, Hg⟩, Ho, ⟨%d0, H0⟩, ⟨%d1, H1⟩, ⟨%d2, H2⟩⟩
      iapply (step_last c (grid0.coords t) _ _ _ _ _ _ accM (Memref.isWhole_whole _) cF cL (blockAt m c 0 t) (blockAt m c 1 t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · -- a middle step: the accumulator is added to
      have cF : ¬atFirst (grid0.coords t) := fun h => hF ((atFirst_iff t).mp h)
      have cL : ¬atLast (grid0.coords t) := fun h => hL ((atLast_iff t).mp h)
      rw [Dat.leavesExact_idle (dats m 0 c) 2 t (idle2 t cL) (noFlush2 t cL)]
      rw [accAt_next m c t hF, inv_castSucc m c t, inv_pos m c _ _ hz]
      iintro ⟨⟨HS, Hg⟩, Ho, ⟨%d0, H0⟩, ⟨%d1, H1⟩, ⟨%d2, H2⟩⟩
      iapply (step_mid c (grid0.coords t) _ _ _ _ _ _ accM (Memref.isWhole_whole _) cF cL (blockAt m c 0 t) (blockAt m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the class's back: the accumulator's contents are forgotten. -/
theorem inv_out (c : Dev nD) : (dats m 0 c).Φ (Fin.last cfg0.N) ⊢ Pipeline.ΦA spec0 c := by
  have hN : cfg0.N = 128 := N_0
  rw [show (dats m 0 c).Φ (Fin.last cfg0.N) = inv m c (Fin.last cfg0.N).val (Nat.le_of_lt_succ (Fin.last cfg0.N).isLt) from rfl,
    inv_pos m c _ _ (by rw [Fin.val_last]; omega), classInv_eq]
  iintro ⟨HS, Hg⟩
  isplitl [HS]
  · iexists _; iexact HS
  iexact Hg

end Cert.KernelIdeal.Around

end
-- ==== Proof.KI.Later.lean ====
/-
  The later host operations of the idealized kernel program, seen from the region: the seventy-three operations after the
  K-blocked matrix product touch only unscoped TensorCore buffers, allocate nothing and write neither an array of the
  pipeline nor an argument of the program.  Hence the program reduces to the region continued by them, every argument
  array the pipeline does not stage ends as launched, and the run around the region yields the frame claim's post.
-/
import proofs.«151015_j27419071218491_1_alg».proof.Proof.KI.Entry

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen
open Idealize.ShloMosaic.Pipeline (Dat Cfg)

variable {F : FTy → Type} [FloatOps F]
variable (m : (ℓ : Loc nD τ sig) → Buf (Elt F) ℓ)
variable (ρ : Dev nD → PrngReg)

/-! ## The host operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## The buffers the host operations write

Every host operation writes exactly one buffer, its result.  The results of the fifteen operations before the region and of
the seventy-three after it are listed; whether a given reference is among them is then decided on the references alone. -/

/-- The results of the fifteen operations before the region. -/
def writtenBefore : List (Ref sig .tc) :=
  [ main_v0, main_v1, main_v2, main_v3, main_cst, main_v4, main_cst_0, main_v5,
    main_v6, main_v7, main_cst_1, main_v8, main_v9, main_v10, main_v11 ]

/-- The results of the seventy-three operations after the region. -/
def writtenLater : List (Ref sig .tc) :=
  [ main_v13, main_v14, main_c, main_v15, main_v16, main_c_2, main_v17, main_v18,
    main_v19, main_v20, main_v21, main_cst_3, main_v22, main_v23, main_v24, main_v25,
    main_v26, main_v27, main_v28, main_v29, main_v30, main_call0_cst, main_call0_v0, main_v31,
    main_v32, main_c_4, main_v33, main_v34, main_c_5, main_v35, main_v36, main_v37,
    main_v38, main_v39, main_cst_6, main_v40, main_v41, main_v42, main_v43, main_v44,
    main_v45, main_v46, main_v47, main_v48, main_v49, main_call1_cst, main_call1_v0, main_v50,
    main_v51, main_c_7, main_v52, main_v53, main_c_8, main_v54, main_v55, main_v56,
    main_v57, main_v58, main_cst_9, main_v59, main_v60, main_v61, main_v62, main_v63,
    main_v64, main_v65, main_v66, main_v67, main_v68, main_v69, main_v70, main_v71,
    main_v72 ]

/-- A single result listed in `W` lies in `W` read as device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- An operation whose results all lie in `W` does not write a reference outside `W`. -/
theorem not_writes_of_sub {W : List (Ref sig .tc)} {r : Ref sig .tc} {op : HloOp τ sig (Elt F)}
    (hW : op.writes ⊆ (W.map (Proc.devRef (τ := τ) .tc)).toFinset) (hr : r ∉ W) : Proc.devRef .tc r ∉ op.writes := fun hb => by
  obtain ⟨y, hy, he⟩ := List.mem_map.mp (List.mem_toFinset.mp (hW hb))
  exact hr (Proc.devRef_injective _ he ▸ hy)

theorem hostOps0_writes : (hostOps0 : List (HloOp τ sig (Elt F))).Forall fun op =>
    op.writes ⊆ (writtenBefore.map (Proc.devRef (τ := τ) .tc)).toFinset := by
  simp only [List.Forall]
  repeat' apply And.intro
  all_goals exact single_sub (by decide)
theorem hostOps1_writes : (hostOps1 : List (HloOp τ sig (Elt F))).Forall fun op =>
    op.writes ⊆ (writtenLater.map (Proc.devRef (τ := τ) .tc)).toFinset := by
  simp only [List.Forall]
  repeat' apply And.intro
  all_goals exact single_sub (by decide)
theorem hostOps1_1_writes : (hostOps1_1 : List (HloOp τ sig (Elt F))).Forall fun op =>
    op.writes ⊆ (writtenLater.map (Proc.devRef (τ := τ) .tc)).toFinset := by
  simp only [List.Forall]
  repeat' apply And.intro
  all_goals exact single_sub (by decide)
theorem hostOps1_2_writes : (hostOps1_2 : List (HloOp τ sig (Elt F))).Forall fun op =>
    op.writes ⊆ (writtenLater.map (Proc.devRef (τ := τ) .tc)).toFinset := by
  simp only [List.Forall]
  repeat' apply And.intro
  all_goals exact single_sub (by decide)
theorem hostOps1_3_writes : (hostOps1_3 : List (HloOp τ sig (Elt F))).Forall fun op =>
    op.writes ⊆ (writtenLater.map (Proc.devRef (τ := τ) .tc)).toFinset := by
  simp only [List.Forall]
  repeat' apply And.intro
  all_goals exact single_sub (by decide)
theorem hostOps1_4_writes : (hostOps1_4 : List (HloOp τ sig (Elt F))).Forall fun op =>
    op.writes ⊆ (writtenLater.map (Proc.devRef (τ := τ) .tc)).toFinset := by
  simp only [List.Forall]
  repeat' apply And.intro
  all_goals exact single_sub (by decide)

/-- Every later operation writes a listed result only. -/
theorem later_writes : ∀ ops ∈ (later : List (List (HloOp τ sig (Elt F)))), ∀ op ∈ ops,
    op.writes ⊆ (writtenLater.map (Proc.devRef (τ := τ) .tc)).toFinset := by
  intro ops hops op hop
  simp only [later, List.mem_cons, List.mem_nil_iff, or_false] at hops
  rcases hops with rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop

/-! ## The side conditions of the run around the region -/

/-- The later operations touch unscoped TensorCore buffers only; nothing being prefetched, each such buffer is an array of
    the pipeline or a buffer that bypasses the region. -/
theorem later_sub : ∀ ops ∈ (later : List (List (HloOp τ sig (Elt F)))), ∀ op ∈ ops, op.bufs ⊆ Pipeline.tailRefs sig Pipeline.Prefetch.none spec0 := by
  rw [Pipeline.tailRefs_none spec0 launch0.win.arr_unscoped]
  intro ops hops op hop
  simp only [later, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  simp only [later, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- They write no array of the pipeline: none of the three arrays is a listed result. -/
theorem later_keeps : ∀ ops ∈ (later : List (List (HloOp τ sig (Elt F)))), ∀ op ∈ ops, ∀ w, Proc.devRef .tc (Pipeline.arrRef spec0 w) ∉ op.writes :=
  fun ops hops op hop w =>
    not_writes_of_sub (later_writes ops hops op hop) ((by decide : ∀ w, Pipeline.arrRef spec0 w ∉ writtenLater) w)

/-- The program is the fifteen earlier operations, the region, then the later stretches: holding the launch contents it
    reduces to the region continued by the later stretches, at the contents after the earlier operations. -/
theorem reduces (𝒱₀ : Variants) : Pipeline.HMainK (Ix := Unit) (Name := ℕ) (U := UR sig nD τ) (Lvl := ℕ) cfgs 0 defs₀ 𝒱₀ m (main (F := F)) (entryAt m)
    (fun _ => Pipeline.chain ((later (F := F)).map StableHlo.seq)) :=
  Pipeline.hmain_around cfgs 0 defs₀ 𝒱₀ m main [hostOps0] later (by simp only [List.Forall]; exact hostOps0_sub)
    (by simp only [List.Forall]; exact hostOps0_fresh) main_chain

/-! ## The argument arrays at the end -/

/-- A buffer that is no result of the earlier operations is entered as launched. -/
theorem entry_of_not_written (c : Dev nD) (b : Ref sig .tc) (hb : b ∉ writtenBefore) :
    entryAt m c b = m ((c : Thread nD τ).loc b) :=
  StableHlo.after_of_forall_not_mem (b := Proc.devRef .tc b) _ _ (fun op hop => by
    obtain ⟨ops, hops, hop'⟩ := List.mem_flatten.mp hop
    rw [List.mem_singleton] at hops; subst hops
    exact not_writes_of_sub ((List.forall_iff_forall_mem.mp hostOps0_writes) op hop') hb)

/-- A buffer that is no array of the pipeline and no result of the later operations ends as it was entered. -/
theorem after_of_not_written (dats : (p : Fin 1) → (c : Dev nD) → Dat τ (Elt F) Unit ℕ (UR sig nD τ) ℕ (cfgs p) c) (c : Dev nD)
    (b : Ref sig .tc) (hb : b ∉ writtenLater) (ha : ∀ w, Pipeline.arrRef spec0 w ≠ b) :
    Pipeline.afterTail₀ cfgs dats 0 (entry m) later c b = entryAt m c b := by
  unfold Pipeline.afterTail₀
  rw [StableHlo.after_of_forall_not_mem (b := Proc.devRef .tc b) _ _ (fun op hop => ?_),
    Pipeline.withArrays_of_ne _ c (entry m c) _ b ha]
  obtain ⟨ops, hops, hop'⟩ := List.mem_flatten.mp hop
  exact not_writes_of_sub (later_writes ops hops op hop') hb

/-- an argument array the pipeline does not stage is, after the later operations, what it was at launch -/
theorem arg1_after (dats : (p : Fin 1) → (c : Dev nD) → Dat τ (Elt F) Unit ℕ (UR sig nD τ) ℕ (cfgs p) c) (c : Dev nD) :
    Pipeline.afterTail₀ cfgs dats 0 (entry m) later c main_arg1 = m ((c : Thread nD τ).loc main_arg1) :=
  (after_of_not_written m dats c main_arg1 (by decide) (by decide)).trans (entry_of_not_written m c main_arg1 (by decide))
/-- an argument array the pipeline does not stage is, after the later operations, what it was at launch -/
theorem arg2_after (dats : (p : Fin 1) → (c : Dev nD) → Dat τ (Elt F) Unit ℕ (UR sig nD τ) ℕ (cfgs p) c) (c : Dev nD) :
    Pipeline.afterTail₀ cfgs dats 0 (entry m) later c main_arg2 = m ((c : Thread nD τ).loc main_arg2) :=
  (after_of_not_written m dats c main_arg2 (by decide) (by decide)).trans (entry_of_not_written m c main_arg2 (by decide))
/-- an argument array the pipeline does not stage is, after the later operations, what it was at launch -/
theorem arg3_after (dats : (p : Fin 1) → (c : Dev nD) → Dat τ (Elt F) Unit ℕ (UR sig nD τ) ℕ (cfgs p) c) (c : Dev nD) :
    Pipeline.afterTail₀ cfgs dats 0 (entry m) later c main_arg3 = m ((c : Thread nD τ).loc main_arg3) :=
  (after_of_not_written m dats c main_arg3 (by decide) (by decide)).trans (entry_of_not_written m c main_arg3 (by decide))
/-- an argument array the pipeline does not stage is, after the later operations, what it was at launch -/
theorem arg4_after (dats : (p : Fin 1) → (c : Dev nD) → Dat τ (Elt F) Unit ℕ (UR sig nD τ) ℕ (cfgs p) c) (c : Dev nD) :
    Pipeline.afterTail₀ cfgs dats 0 (entry m) later c main_arg4 = m ((c : Thread nD τ).loc main_arg4) :=
  (after_of_not_written m dats c main_arg4 (by decide) (by decide)).trans (entry_of_not_written m c main_arg4 (by decide))
/-- an argument array the pipeline does not stage is, after the later operations, what it was at launch -/
theorem arg5_after (dats : (p : Fin 1) → (c : Dev nD) → Dat τ (Elt F) Unit ℕ (UR sig nD τ) ℕ (cfgs p) c) (c : Dev nD) :
    Pipeline.afterTail₀ cfgs dats 0 (entry m) later c main_arg5 = m ((c : Thread nD τ).loc main_arg5) :=
  (after_of_not_written m dats c main_arg5 (by decide) (by decide)).trans (entry_of_not_written m c main_arg5 (by decide))
/-- an argument array the pipeline does not stage is, after the later operations, what it was at launch -/
theorem arg6_after (dats : (p : Fin 1) → (c : Dev nD) → Dat τ (Elt F) Unit ℕ (UR sig nD τ) ℕ (cfgs p) c) (c : Dev nD) :
    Pipeline.afterTail₀ cfgs dats 0 (entry m) later c main_arg6 = m ((c : Thread nD τ).loc main_arg6) :=
  (after_of_not_written m dats c main_arg6 (by decide) (by decide)).trans (entry_of_not_written m c main_arg6 (by decide))
/-- an argument array the pipeline does not stage is, after the later operations, what it was at launch -/
theorem arg7_after (dats : (p : Fin 1) → (c : Dev nD) → Dat τ (Elt F) Unit ℕ (UR sig nD τ) ℕ (cfgs p) c) (c : Dev nD) :
    Pipeline.afterTail₀ cfgs dats 0 (entry m) later c main_arg7 = m ((c : Thread nD τ).loc main_arg7) :=
  (after_of_not_written m dats c main_arg7 (by decide) (by decide)).trans (entry_of_not_written m c main_arg7 (by decide))
/-- an argument array the pipeline does not stage is, after the later operations, what it was at launch -/
theorem arg8_after (dats : (p : Fin 1) → (c : Dev nD) → Dat τ (Elt F) Unit ℕ (UR sig nD τ) ℕ (cfgs p) c) (c : Dev nD) :
    Pipeline.afterTail₀ cfgs dats 0 (entry m) later c main_arg8 = m ((c : Thread nD τ).loc main_arg8) :=
  (after_of_not_written m dats c main_arg8 (by decide) (by decide)).trans (entry_of_not_written m c main_arg8 (by decide))
/-- an argument array the pipeline does not stage is, after the later operations, what it was at launch -/
theorem arg9_after (dats : (p : Fin 1) → (c : Dev nD) → Dat τ (Elt F) Unit ℕ (UR sig nD τ) ℕ (cfgs p) c) (c : Dev nD) :
    Pipeline.afterTail₀ cfgs dats 0 (entry m) later c main_arg9 = m ((c : Thread nD τ).loc main_arg9) :=
  (after_of_not_written m dats c main_arg9 (by decide) (by decide)).trans (entry_of_not_written m c main_arg9 (by decide))
/-- an argument array the pipeline does not stage is, after the later operations, what it was at launch -/
theorem arg10_after (dats : (p : Fin 1) → (c : Dev nD) → Dat τ (Elt F) Unit ℕ (UR sig nD τ) ℕ (cfgs p) c) (c : Dev nD) :
    Pipeline.afterTail₀ cfgs dats 0 (entry m) later c main_arg10 = m ((c : Thread nD τ).loc main_arg10) :=
  (after_of_not_written m dats c main_arg10 (by decide) (by decide)).trans (entry_of_not_written m c main_arg10 (by decide))
/-- an argument array the pipeline does not stage is, after the later operations, what it was at launch -/
theorem arg11_after (dats : (p : Fin 1) → (c : Dev nD) → Dat τ (Elt F) Unit ℕ (UR sig nD τ) ℕ (cfgs p) c) (c : Dev nD) :
    Pipeline.afterTail₀ cfgs dats 0 (entry m) later c main_arg11 = m ((c : Thread nD τ).loc main_arg11) :=
  (after_of_not_written m dats c main_arg11 (by decide) (by decide)).trans (entry_of_not_written m c main_arg11 (by decide))
/-- an argument array the pipeline does not stage is, after the later operations, what it was at launch -/
theorem arg12_after (dats : (p : Fin 1) → (c : Dev nD) → Dat τ (Elt F) Unit ℕ (UR sig nD τ) ℕ (cfgs p) c) (c : Dev nD) :
    Pipeline.afterTail₀ cfgs dats 0 (entry m) later c main_arg12 = m ((c : Thread nD τ).loc main_arg12) :=
  (after_of_not_written m dats c main_arg12 (by decide) (by decide)).trans (entry_of_not_written m c main_arg12 (by decide))

/-- The first window's array is entered as launched. -/
theorem arg0_entry (c : Dev nD) : entryAt m c main_arg0 = m ((c : Thread nD τ).loc main_arg0) :=
  entry_of_not_written m c main_arg0 (by decide)

/-- the frame claim's post from the launch theorem's post -/
theorem frame_of_run (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).1 0).trans (((dats 0 c).arrAt_in 0 rfl _).trans ((hA c 0).trans (arg0_entry m c))),
     ((h c).2 main_arg1 (Pipeline.mem_restRefs_of main_arg1 (by decide) (by decide))).trans (arg1_after m dats c),
     ((h c).2 main_arg2 (Pipeline.mem_restRefs_of main_arg2 (by decide) (by decide))).trans (arg2_after m dats c),
     ((h c).2 main_arg3 (Pipeline.mem_restRefs_of main_arg3 (by decide) (by decide))).trans (arg3_after m dats c),
     ((h c).2 main_arg4 (Pipeline.mem_restRefs_of main_arg4 (by decide) (by decide))).trans (arg4_after m dats c),
     ((h c).2 main_arg5 (Pipeline.mem_restRefs_of main_arg5 (by decide) (by decide))).trans (arg5_after m dats c),
     ((h c).2 main_arg6 (Pipeline.mem_restRefs_of main_arg6 (by decide) (by decide))).trans (arg6_after m dats c),
     ((h c).2 main_arg7 (Pipeline.mem_restRefs_of main_arg7 (by decide) (by decide))).trans (arg7_after m dats c),
     ((h c).2 main_arg8 (Pipeline.mem_restRefs_of main_arg8 (by decide) (by decide))).trans (arg8_after m dats c),
     ((h c).2 main_arg9 (Pipeline.mem_restRefs_of main_arg9 (by decide) (by decide))).trans (arg9_after m dats c),
     ((h c).2 main_arg10 (Pipeline.mem_restRefs_of main_arg10 (by decide) (by decide))).trans (arg10_after m dats c),
     ((h c).2 main_arg11 (Pipeline.mem_restRefs_of main_arg11 (by decide) (by decide))).trans (arg11_after m dats c),
     ((h c).2 main_arg12 (Pipeline.mem_restRefs_of main_arg12 (by decide) (by decide))).trans (arg12_after m dats c)⟩) h

/-- the same post with the result buffer beside the arguments: the last operation's result bypasses the region, so it ends at
    what the later operations compute from the region's exit -/
theorem result_and_frame_of_run (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) later))) :
    θ_run defs (onTc (τ := τ) (main (F := F))) ⟨m, fun _ => 0, ρ⟩ (fun r => ∀ c : Dev nD,
      r.2.mem ((c.tc : Thread nD τ).loc main_v72) = Pipeline.afterTail₀ cfgs dats 0 (entry m) later c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c).2 main_v72 (Pipeline.mem_restRefs_of main_v72 (by decide) (by decide)),
     ((h c).1 0).trans (((dats 0 c).arrAt_in 0 rfl _).trans ((hA c 0).trans (arg0_entry m c))),
     ((h c).2 main_arg1 (Pipeline.mem_restRefs_of main_arg1 (by decide) (by decide))).trans (arg1_after m dats c),
     ((h c).2 main_arg2 (Pipeline.mem_restRefs_of main_arg2 (by decide) (by decide))).trans (arg2_after m dats c),
     ((h c).2 main_arg3 (Pipeline.mem_restRefs_of main_arg3 (by decide) (by decide))).trans (arg3_after m dats c),
     ((h c).2 main_arg4 (Pipeline.mem_restRefs_of main_arg4 (by decide) (by decide))).trans (arg4_after m dats c),
     ((h c).2 main_arg5 (Pipeline.mem_restRefs_of main_arg5 (by decide) (by decide))).trans (arg5_after m dats c),
     ((h c).2 main_arg6 (Pipeline.mem_restRefs_of main_arg6 (by decide) (by decide))).trans (arg6_after m dats c),
     ((h c).2 main_arg7 (Pipeline.mem_restRefs_of main_arg7 (by decide) (by decide))).trans (arg7_after m dats c),
     ((h c).2 main_arg8 (Pipeline.mem_restRefs_of main_arg8 (by decide) (by decide))).trans (arg8_after m dats c),
     ((h c).2 main_arg9 (Pipeline.mem_restRefs_of main_arg9 (by decide) (by decide))).trans (arg9_after m dats c),
     ((h c).2 main_arg10 (Pipeline.mem_restRefs_of main_arg10 (by decide) (by decide))).trans (arg10_after m dats c),
     ((h c).2 main_arg11 (Pipeline.mem_restRefs_of main_arg11 (by decide) (by decide))).trans (arg11_after m dats c),
     ((h c).2 main_arg12 (Pipeline.mem_restRefs_of main_arg12 (by decide) (by decide))).trans (arg12_after m dats c)⟩) h

end Cert.KernelIdeal.Around

end
-- ==== Proof.KI.Frame.lean ====
/-
  The run of the whole program and its frame.  With the region's proof data (the accumulator carried point to point), the
  body obligation, and the facts about the operations after the region (they touch only the pipeline's arrays and the
  buffers that bypass it, allocate nothing, and write none of the pipeline's arrays), every weakly fair execution of @main
  ends with the pipeline's arrays at what the proof data computes and every other buffer as the later operations leave it.
  The thirteen argument arrays end as they were launched: x is an input window's array, the other twelve bypass the region
  and no operation writes them.
-/
import proofs.«151015_j27419071218491_1_alg».proof.Proof.KI.Carried
import proofs.«151015_j27419071218491_1_alg».proof.Proof.KI.Later

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- At the compiled mesh, for any values, from any memory with zero counters: every weakly fair execution of @main
    terminates, every array of the pipeline ends at what the proof data computes, and every other unscoped buffer ends as
    the operations after the region leave it. -/
theorem run_main : θ_run defs (onTc (τ := τ) (main (F := F))) (s₀ m ρ)
    (Pipeline.FramePost cfgs (dats m) 0 (Pipeline.afterTail₀ cfgs (dats m) 0 (entry m) later)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := later) (hsub := later_sub) (hfresh := later_fresh) (hkeep := later_keeps)
    (hmain := reduces m Variants.none) (hA := dats_A m) (hin := inv_in m) (hout := inv_out m)

/-- The frame: the program runs to the end, faults nowhere, and leaves its thirteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of_run m ρ (dats m) (dats_A m) (run_main m ρ)

end Cert.KernelIdeal.Around

end
-- ==== Proof.KI.Spec.lean ====
/-
  The whole matrix product as one function of the two arrays, index by index on the extended reals: entry (R, j) is the
  sum over all 16384 reduction indices K of x[R, K] * w[K, j].  The K-blocked kernel reaches it eight blocks of 2048 at a
  time; the host's contraction states it in one go.
-/
import proofs.«151015_j27419071218491_1_alg».proof.Proof.KI.Entry
import Idealize.ShloMosaic.Lib.ValueIdx
import Idealize.ShloMosaic.PureOps.Ideal

set_option maxRecDepth 16384

noncomputable section

namespace Cert.KernelIdeal.Around

open Idealize.ShloMosaic
open Cert.KernelIdeal

/-- Rows of `X` against columns of `W`. -/
def rowsTimes (X : (⟨S16384x16384, .f32⟩ : BufTy).Contents (Elt Ideal)) (W : (⟨S16384x32, .f32⟩ : BufTy).Contents (Elt Ideal)) :
    (⟨S16384x32, .f32⟩ : BufTy).Contents (Elt Ideal) :=
  fun I => ∑ K : Fin 16384,
    X (ValueIdx.ix2 (n0 := 16384) (n1 := 16384) ⟨(I 0).val, (I 0).isLt⟩ K) * W (ValueIdx.ix2 (n0 := 16384) (n1 := 32) K ⟨(I 1).val, (I 1).isLt⟩)

/-- The same at explicit coordinates. -/
theorem rowsTimes_apply (X : (⟨S16384x16384, .f32⟩ : BufTy).Contents (Elt Ideal)) (W : (⟨S16384x32, .f32⟩ : BufTy).Contents (Elt Ideal))
    (R : Fin 16384) (j : Fin 32) :
    rowsTimes X W (ValueIdx.ix2 R j) = ∑ K : Fin 16384, X (ValueIdx.ix2 R K) * W (ValueIdx.ix2 K j) := rfl

end Cert.KernelIdeal.Around

end
-- ==== Proof.KI.Product.lean ====
/-
  The value of the K-blocked product.  Entry (r, j) of one block product into an accumulator a is a[r, j] plus the sum over
  the 2048 reduction indices kk of x[r, kk] * w[kk, j].  The block of x that grid point t works on (row-block i = t / 8,
  reduction step k = t % 8) is rows 1024 i .. 1024 i + 1023 and columns 2048 k .. 2048 k + 2047 of the 16384 x 16384 array,
  the block of the weights is rows 2048 k .. 2048 k + 2047 of the 16384 x 32 array.  So inside a row-block the accumulator
  after step k holds, at (r, j), the sum over the first 2048 (k + 1) reduction indices K of x[1024 i + r, K] * w[K, j]:
  at step 7 the sum over all 16384.  That is what is written back, once per row-block, and the sixteen blocks written
  back tile the 16384 x 32 output; the output array therefore ends at the whole product.
-/
import proofs.«151015_j27419071218491_1_alg».proof.Proof.KI.Carried
import proofs.«151015_j27419071218491_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Around

open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace Product

/-! ## One block product at an index -/

/-- The product's left operand is read at the output's row … -/
theorem lhs_row (i : S1024x32.Idx) (q : dot_S1024x2048_S2048x32_S1024x32_1_0_0_1_n_n.contr.Idx) :
    (dot_S1024x2048_S2048x32_S1024x32_1_0_0_1_n_n.lhsIdx i q 0).val = (i 0).val := by
  unfold DotDims.lhsIdx
  rw [dif_neg (show ¬(0 : Fin S1024x2048.rank) ∈ dot_S1024x2048_S2048x32_S1024x32_1_0_0_1_n_n.lhsBatch by decide), dif_pos (show (0 : Fin S1024x2048.rank) ∈ dot_S1024x2048_S2048x32_S1024x32_1_0_0_1_n_n.lhsNonContracting by decide)]
  rfl
/-- … and at the reduction index as its column; -/
theorem lhs_red (i : S1024x32.Idx) (q : dot_S1024x2048_S2048x32_S1024x32_1_0_0_1_n_n.contr.Idx) :
    (dot_S1024x2048_S2048x32_S1024x32_1_0_0_1_n_n.lhsIdx i q 1).val = (q ⟨0, by decide⟩).val :=
  dot_S1024x2048_S2048x32_S1024x32_1_0_0_1_n_n.lhsIdx_val_of_single rfl i q
/-- the right operand at the reduction index as its row … -/
theorem rhs_red (i : S1024x32.Idx) (q : dot_S1024x2048_S2048x32_S1024x32_1_0_0_1_n_n.contr.Idx) :
    (dot_S1024x2048_S2048x32_S1024x32_1_0_0_1_n_n.rhsIdx i q 0).val = (q ⟨0, by decide⟩).val :=
  dot_S1024x2048_S2048x32_S1024x32_1_0_0_1_n_n.rhsIdx_val_of_single rfl i q
/-- … and at the output's column. -/
theorem rhs_col (i : S1024x32.Idx) (q : dot_S1024x2048_S2048x32_S1024x32_1_0_0_1_n_n.contr.Idx) :
    (dot_S1024x2048_S2048x32_S1024x32_1_0_0_1_n_n.rhsIdx i q 1).val = (i 1).val := by
  unfold DotDims.rhsIdx
  rw [dif_neg (show ¬(1 : Fin S2048x32.rank) ∈ dot_S1024x2048_S2048x32_S1024x32_1_0_0_1_n_n.rhsBatch by decide), dif_pos (show (1 : Fin S2048x32.rank) ∈ dot_S1024x2048_S2048x32_S1024x32_1_0_0_1_n_n.rhsNonContracting by decide)]
  rfl

/-- A 1024 x 2048 block times a 2048 x 32 block, into the zero block: entry (r, j) is the sum over kk of x[r, kk] * w[kk, j]. -/
theorem blockProduct_apply (x : FVec Ideal S1024x2048 .bf16) (w : FVec Ideal S2048x32 .bf16) (r : Fin 1024) (j : Fin 32) :
    FloatOps.matmul dot_S1024x2048_S2048x32_S1024x32_1_0_0_1_n_n none x w (constant (F := Ideal) S1024x32 .f32 0x00000000#32) (ix2 r j)
      = ∑ kk : Fin 2048, x (ix2 r kk) * w (ix2 kk j) := by
  rw [Ideal.matmul_constant_zero_apply, ← Equiv.sum_comp (ValueIdx.contrEquiv1 dot_S1024x2048_S2048x32_S1024x32_1_0_0_1_n_n 2048 rfl rfl).symm]
  refine Finset.sum_congr rfl fun k _ => ?_
  have hk := ValueIdx.contrEquiv1_symm_val dot_S1024x2048_S2048x32_S1024x32_1_0_0_1_n_n 2048 rfl rfl k
  have el : dot_S1024x2048_S2048x32_S1024x32_1_0_0_1_n_n.lhsIdx (ix2 r j) ((ValueIdx.contrEquiv1 dot_S1024x2048_S2048x32_S1024x32_1_0_0_1_n_n 2048 rfl rfl).symm k) = ix2 r k := funext fun a => Fin.ext (by
    match a with
    | ⟨0, _⟩ => exact lhs_row _ _
    | ⟨1, _⟩ => exact (lhs_red _ _).trans hk)
  have er : dot_S1024x2048_S2048x32_S1024x32_1_0_0_1_n_n.rhsIdx (ix2 r j) ((ValueIdx.contrEquiv1 dot_S1024x2048_S2048x32_S1024x32_1_0_0_1_n_n 2048 rfl rfl).symm k) = ix2 k j := funext fun a => Fin.ext (by
    match a with
    | ⟨0, _⟩ => exact (rhs_red _ _).trans hk
    | ⟨1, _⟩ => exact rhs_col _ _)
  rw [el, er]

/-- The body's update of the accumulator at an index: the format change to bf16 is the identity on the extended reals. -/
theorem update_apply (x : Vec Ideal S1024x2048 .f32) (w : Vec Ideal S2048x32 .f32) (a : Vec Ideal S1024x32 .f32) (r : Fin 1024) (j : Fin 32) :
    k0_pay2 x w a (ix2 r j) = a (ix2 r j) + ∑ kk : Fin 2048, x (ix2 r kk) * w (ix2 kk j) := by
  unfold k0_pay2
  simp only [shapeCast_self]
  refine (addf_apply a _ (ix2 r j)).trans (congrArg (a (ix2 r j) + ·) ?_)
  exact blockProduct_apply (truncf .bf16 x bitsLt_bf16_f32) (truncf .bf16 w bitsLt_bf16_f32) r j

/-- The block the accumulator is reset to is zero everywhere. -/
theorem reset_apply (r : Fin 1024) (j : Fin 32) : k0_pay1 (F := Ideal) (ix2 r j) = 0 := by
  unfold k0_pay1
  simp only [shapeCast_self]
  exact Ideal.ofBits_zero_f32

/-! ## The blocks a grid point works on, read off the arrays -/

variable (m : (ℓ : Loc nD τ sig) → Buf (Elt Ideal) ℓ)

/-- The two arrays the region finds, and the two blocks grid point t works on, each at its literal shape. -/
abbrev xArr (c : Dev nD) : Vec Ideal S16384x16384 .f32 := entryAt m c main_arg0
abbrev wArr (c : Dev nD) : Vec Ideal S16384x32 .f32 := entryAt m c main_v11
abbrev xBlk (c : Dev nD) (t : Fin cfg0.N) : Vec Ideal S1024x2048 .f32 := blockAt m c 0 t
abbrev wBlk (c : Dev nD) (t : Fin cfg0.N) : Vec Ideal S2048x32 .f32 := blockAt m c 1 t

/-- The three index maps over the grid: point t is row-block t / 8 at reduction step t % 8. -/
theorem index_maps : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The block of x at point t is rows 1024 (t / 8) + · and columns 2048 (t % 8) + · of the array. -/
theorem xBlk_apply (c : Dev nD) (t : Fin cfg0.N) (y : S1024x2048.Idx) (K : S16384x16384.Idx)
    (h0 : (K 0).val = 1024 * (t.val / 8) + (y 0).val) (h1 : (K 1).val = 2048 * (t.val % 8) + (y 1).val) :
    xBlk m c t y = xArr m c K := by
  obtain ⟨e0, e1, -, -, -, -⟩ := index_maps t
  unfold xBlk blockAt
  rw [View.read_apply]
  show entryAt m c main_arg0 _ = entryAt m c main_arg0 _
  congr 1
  funext a
  apply Fin.ext
  match a with
  | ⟨0, _⟩ => show win0_0.index t 0 * 1024 + 1 * (y 0).val = (K 0).val; rw [e0, h0]; omega
  | ⟨1, _⟩ => show win0_0.index t 1 * 2048 + 1 * (y 1).val = (K 1).val; rw [e1, h1]; omega

/-- The block of the weights at point t is rows 2048 (t % 8) + · of the array, all 32 columns. -/
theorem wBlk_apply (c : Dev nD) (t : Fin cfg0.N) (y : S2048x32.Idx) (K : S16384x32.Idx)
    (h0 : (K 0).val = 2048 * (t.val % 8) + (y 0).val) (h1 : (K 1).val = (y 1).val) :
    wBlk m c t y = wArr m c K := by
  obtain ⟨-, -, e0, e1, -, -⟩ := index_maps t
  unfold wBlk blockAt
  rw [View.read_apply]
  show entryAt m c main_v11 _ = entryAt m c main_v11 _
  congr 1
  funext a
  apply Fin.ext
  match a with
  | ⟨0, _⟩ => show win0_1.index t 0 * 2048 + 1 * (y 0).val = (K 0).val; rw [e0, h0]; omega
  | ⟨1, _⟩ => show win0_1.index t 1 * 32 + 1 * (y 1).val = (K 1).val; rw [e1, h1]; omega

/-! ## The accumulator inside a row-block -/

/-- The term of the whole product at row R, reduction index K and column j (zero outside the arrays). -/
def term (c : Dev nD) (j : Fin 32) (R K : ℕ) : EReal :=
  if h : R < 16384 ∧ K < 16384 then
    xArr m c (ix2 (⟨R, h.1⟩ : Fin 16384) (⟨K, h.2⟩ : Fin 16384)) * wArr m c (ix2 (⟨K, h.2⟩ : Fin 16384) j)
  else 0

/-- The product of point t's two blocks at (r, j): the 2048 terms of row 1024 (t / 8) + r from reduction index 2048 (t % 8) on. -/
theorem blockSum (c : Dev nD) (t : Fin cfg0.N) (r : Fin 1024) (j : Fin 32) :
    ∑ kk : Fin 2048, xBlk m c t (ix2 r kk) * wBlk m c t (ix2 kk j)
      = ∑ kk ∈ Finset.range 2048, term m c j (1024 * (t.val / 8) + r.val) (2048 * (t.val % 8) + kk) := by
  have hN : t.val < 128 := lt_of_lt_of_eq t.isLt (show cfg0.N = 128 from N_0)
  rw [Finset.sum_range]
  refine Finset.sum_congr rfl fun kk _ => ?_
  have hR : 1024 * (t.val / 8) + r.val < 16384 := by have := r.isLt; omega
  have hK : 2048 * (t.val % 8) + kk.val < 16384 := by have := kk.isLt; omega
  unfold term
  rw [dif_pos ⟨hR, hK⟩]
  exact congrArg₂ (· * ·) (xBlk_apply m c t (ix2 r kk) (ix2 (⟨_, hR⟩ : Fin 16384) (⟨_, hK⟩ : Fin 16384)) rfl rfl)
    (wBlk_apply m c t (ix2 kk j) (ix2 (⟨_, hK⟩ : Fin 16384) j) rfl rfl)

/-- One point: an accumulator holding the terms below reduction index 2048 (t % 8) ends holding those below 2048 (t % 8 + 1). -/
theorem point_apply (c : Dev nD) (t : Fin cfg0.N) (a : Vec Ideal S1024x32 .f32) (r : Fin 1024) (j : Fin 32)
    (ha : a (ix2 r j) = ∑ K ∈ Finset.range (2048 * (t.val % 8)), term m c j (1024 * (t.val / 8) + r.val) K) :
    k0_pay2 (xBlk m c t) (wBlk m c t) a (ix2 r j)
      = ∑ K ∈ Finset.range (2048 * (t.val % 8 + 1)), term m c j (1024 * (t.val / 8) + r.val) K := by
  refine (update_apply (xBlk m c t) (wBlk m c t) a r j).trans ?_
  rw [ha, blockSum m c t r j, Nat.mul_add, Nat.mul_one, Finset.sum_range_add]

/-- After point n the accumulator holds, at (r, j), the terms of row 1024 (n / 8) + r below reduction index 2048 (n % 8 + 1). -/
theorem accAt_apply (c : Dev nD) (r : Fin 1024) (j : Fin 32) (n : ℕ) : ∀ hn : n < cfg0.N,
    accAt m c n hn (ix2 r j) = ∑ K ∈ Finset.range (2048 * (n % 8 + 1)), term m c j (1024 * (n / 8) + r.val) K := by
  induction n with
  | zero =>
    intro hn
    refine (congrFun (accAt_first m c ⟨0, hn⟩ (Nat.zero_mod 8)) (ix2 r j)).trans ?_
    exact point_apply m c ⟨0, hn⟩ (k0_pay1 (F := Ideal)) r j ((reset_apply r j).trans (Finset.sum_range_zero _).symm)
  | succ n ih =>
    intro hn
    by_cases h : (n + 1) % 8 = 0
    · refine (congrFun (accAt_first m c ⟨n + 1, hn⟩ h) (ix2 r j)).trans ?_
      refine point_apply m c ⟨n + 1, hn⟩ (k0_pay1 (F := Ideal)) r j ((reset_apply r j).trans ?_)
      show 0 = ∑ K ∈ Finset.range (2048 * ((n + 1) % 8)), _
      rw [h, Nat.mul_zero, Finset.sum_range_zero]
    · refine (congrFun (accAt_next m c ⟨n + 1, hn⟩ h) (ix2 r j)).trans ?_
      refine point_apply m c ⟨n + 1, hn⟩ _ r j ?_
      show accAt m c n _ (ix2 r j) = ∑ K ∈ Finset.range (2048 * ((n + 1) % 8)), term m c j (1024 * ((n + 1) / 8) + r.val) K
      rw [show (n + 1) % 8 = n % 8 + 1 by omega, show (n + 1) / 8 = n / 8 by omega]
      exact ih (Nat.lt_of_succ_lt hn)

/-- At the last step of a row-block the accumulator holds the row-block's rows of the whole product. -/
theorem accAt_last (c : Dev nD) (t : Fin cfg0.N) (h7 : t.val % 8 = 7) (r : Fin 1024) (j : Fin 32) (R : Fin 16384)
    (hR : R.val = 1024 * (t.val / 8) + r.val) :
    accAt m c t.val t.isLt (ix2 r j) = rowsTimes (entryAt m c main_arg0) (entryAt m c main_v11) (ix2 R j) := by
  rw [accAt_apply m c r j t.val t.isLt, h7, ← hR, rowsTimes_apply, show 2048 * (7 + 1) = 16384 from rfl, Finset.sum_range]
  refine Finset.sum_congr rfl fun K _ => ?_
  unfold term
  rw [dif_pos ⟨R.isLt, K.isLt⟩]

/-! ## What is written back, and the whole array -/

/-- The output window's blocks are whole: what is written back from a staging buffer is all of it. -/
theorem written_apply (t : Fin cfg0.N) (X : Vec Ideal S1024x32 .f32) (r : Fin 1024) (j : Fin 32) :
    (cfg0.win 2).cut (grid0.coords t) X (ix2 r j) = X (ix2 r j) := rfl

/-- The output block of point t is rows 1024 (t / 8) + · of the output array, all 32 columns. -/
theorem outBlock_apply (t : Fin cfg0.N) (G : (⟨S16384x32, .f32⟩ : BufTy).Contents (Elt Ideal)) (y : S1024x32.Idx) (K : S16384x32.Idx)
    (h0 : (K 0).val = 1024 * (t.val / 8) + (y 0).val) (h1 : (K 1).val = (y 1).val) :
    ((cfg0.win 2).blk t).view.read (Elt Ideal) G y = G K := by
  obtain ⟨-, -, -, -, e0, e1⟩ := index_maps t
  rw [View.read_apply]
  show G _ = G _
  congr 1
  funext a
  apply Fin.ext
  match a with
  | ⟨0, _⟩ => show win0_2.index t 0 * 1024 + 1 * (y 0).val = (K 0).val; rw [e0, h0]; omega
  | ⟨1, _⟩ => show win0_2.index t 1 * 32 + 1 * (y 1).val = (K 1).val; rw [e1, h1]; omega

/-- What a point at the last step of a row-block writes back is its block of the whole product. -/
theorem flushed_eq (c : Dev nD) (t : Fin cfg0.N) (hf : (cfg0.win 2).flush t = true) :
    (dats m 0 c).flushed 2 t
      = ((cfg0.win 2).blk t).view.read (Elt Ideal) (rowsTimes (entryAt m c main_arg0) (entryAt m c main_v11)) := by
  have h7 : t.val % 8 = 7 := (flush0_2 t).mp hf
  have hN : t.val < 128 := lt_of_lt_of_eq t.isLt (show cfg0.N = 128 from N_0)
  show (cfg0.win 2).cut (grid0.coords t) ((dats m 0 c).after 2 t) = _
  rw [after_2]
  funext y
  obtain ⟨r, j, rfl⟩ : ∃ (r : Fin 1024) (j : Fin 32), y = ix2 r j := ⟨y 0, y 1, eq_ix2 y⟩
  have hR : 1024 * (t.val / 8) + r.val < 16384 := by have := r.isLt; omega
  exact (written_apply t (accAt m c t.val t.isLt) r j).trans ((accAt_last m c t h7 r j ⟨_, hR⟩ rfl).trans
    (outBlock_apply t (rowsTimes (entryAt m c main_arg0) (entryAt m c main_v11)) (ix2 r j) (ix2 (⟨_, hR⟩ : Fin 16384) j) rfl rfl).symm)

/-- An index of the output array is in point t's block iff each coordinate is in the block's range on its axis. -/
theorem mem_block (t : Fin cfg0.N) (i : S16384x32.Idx) :
    i ∈ ((cfg0.win 2).blk t).view.set ↔ ∀ a : Fin 2, win0_2.index t a * S1024x32.size a ≤ (i a).val
      ∧ (i a).val < win0_2.index t a * S1024x32.size a + S1024x32.size a := by
  show i ∈ ((View.whole main_v12).slice (win0_2.rect t)).set ↔ _
  rw [View.set_slice_whole, Rect.mem_set_unit]
  exact Iff.rfl

/-- Row R of the output is in the block written back at the last step of row-block R / 1024. -/
theorem covered (i : S16384x32.Idx) : ∃ t : Fin cfg0.N, (cfg0.win 2).flush t = true ∧ i ∈ ((cfg0.win 2).blk t).view.set := by
  have hi0 : (i 0).val < 16384 := (i 0).isLt
  have hi1 : (i 1).val < 32 := (i 1).isLt
  have hN : cfg0.N = 128 := N_0
  have ht : 8 * ((i 0).val / 1024) + 7 < cfg0.N := by rw [hN]; omega
  obtain ⟨-, -, -, -, e0, e1⟩ := index_maps ⟨8 * ((i 0).val / 1024) + 7, ht⟩
  refine ⟨⟨8 * ((i 0).val / 1024) + 7, ht⟩, (flush0_2 _).mpr (by show (8 * ((i 0).val / 1024) + 7) % 8 = 7; omega), ?_⟩
  rw [mem_block]
  intro a
  match a with
  | ⟨0, _⟩ =>
    show win0_2.index ⟨8 * ((i 0).val / 1024) + 7, ht⟩ 0 * 1024 ≤ (i 0).val ∧ (i 0).val < win0_2.index ⟨8 * ((i 0).val / 1024) + 7, ht⟩ 0 * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win0_2.index ⟨8 * ((i 0).val / 1024) + 7, ht⟩ 1 * 32 ≤ (i 1).val ∧ (i 1).val < win0_2.index ⟨8 * ((i 0).val / 1024) + 7, ht⟩ 1 * 32 + 32
    rw [e1]; omega

end Product

variable (m : (ℓ : Loc nD τ sig) → Buf (Elt Ideal) ℓ)

/-- after the region the output array is the whole product of the arrays the region found -/
theorem region_result (c : Dev nD) :
    (dats m 0 c).arrAt 2 cfg0.N = rowsTimes (entryAt m c main_arg0) (entryAt m c main_v11) :=
  (dats m 0 c).arrAt_eq_of_cover 2 (rowsTimes (entryAt m c main_arg0) (entryAt m c main_v11)) (Product.flushed_eq m c) Product.covered

end Cert.KernelIdeal.Around

end
-- ==== Proof.KI.Halves.lean ====
/-
  The weight matrix the region multiplies by is [W1l | W1r]: the two 16384 x 16 weight arrays set side by side along the
  column axis, columns 0..15 those of W1l and columns 16..31 those of W1r.  The fifteen host operations before the
  region end with that concatenation, and neither weight array is a result of an earlier one, so the region finds the
  concatenation of the arrays as launched.

  The product of X with a side-by-side matrix is the two products side by side.  Entry (R, j) of X . [Wl | Wr] is the
  sum over K of X[R, K] * [Wl | Wr][K, j]; for j < 16 the right factor is Wl[K, j], so the left sixteen columns of the
  product are X . Wl, and for the column 16 + j it is Wr[K, j], so the right sixteen columns are X . Wr.  Term by term
  the two sums are the same sum, so no law of the extended reals beyond equality of the summands is used.  The host's
  contraction of X with a 16384 x 16 matrix, read at (R, j), is that very sum.
-/
import proofs.«151015_j27419071218491_1_alg».proof.Proof.KI.Later
import proofs.«151015_j27419071218491_1_alg».proof.Proof.KI.Spec
import proofs.«151015_j27419071218491_1_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.Sem
open Idealize.ShloMosaic.StableHlo
open Cert.KernelIdeal Cert.KernelIdeal.Gen

variable (m : (ℓ : Loc nD τ sig) → Buf (Elt Ideal) ℓ)

/-- the weights the region finds are W1l and W1r side by side -/
theorem weights_entry (c : Dev nD) :
    entryAt m c main_v11 = concatenate S16384x32 1 [⟨S16384x16, m ((c : Thread nD τ).loc main_arg2)⟩, ⟨S16384x16, m ((c : Thread nD τ).loc main_arg4)⟩] Facts₀.concatenates_S16384x16_S16384x16_S16384x32_d1 := by
  show StableHlo.after (List.flatten [hostOps0]) (fun b => m (c, b)) (Proc.devRef .tc main_v11) = _
  simp only [Gen.hostOps0, List.flatten_cons, List.flatten_nil, List.append_nil]
  after_results

/-! ## The side-by-side matrix at an entry -/

/-- an entry in the left sixteen columns of [Wl | Wr] is Wl's -/
theorem sideBySide_left (Wl Wr : (⟨S16384x16, .f32⟩ : BufTy).Contents (Elt Ideal)) (K : Fin 16384) (j : Fin 16) (j' : Fin 32) (hj : j'.val = j.val) :
    concatenate S16384x32 1 [⟨S16384x16, Wl⟩, ⟨S16384x16, Wr⟩] Facts₀.concatenates_S16384x16_S16384x16_S16384x32_d1 (ValueIdx.ix2 K j')
      = Wl (ValueIdx.ix2 K j) :=
  concatenate_pair_apply_left (t := S16384x32) (s₁ := S16384x16) (s₂ := S16384x16) 1 Wl Wr Facts₀.concatenates_S16384x16_S16384x16_S16384x32_d1
    (ValueIdx.ix2 K j') rfl (ValueIdx.ix2 K j) (fun b => match b with
      | ⟨0, _⟩ => rfl
      | ⟨1, _⟩ => hj.symm)

/-- an entry in the right sixteen columns of [Wl | Wr] is Wr's, sixteen columns to the left -/
theorem sideBySide_right (Wl Wr : (⟨S16384x16, .f32⟩ : BufTy).Contents (Elt Ideal)) (K : Fin 16384) (j : Fin 16) (j' : Fin 32) (hj : j'.val = 16 + j.val) :
    concatenate S16384x32 1 [⟨S16384x16, Wl⟩, ⟨S16384x16, Wr⟩] Facts₀.concatenates_S16384x16_S16384x16_S16384x32_d1 (ValueIdx.ix2 K j')
      = Wr (ValueIdx.ix2 K j) :=
  concatenate_pair_apply_right (t := S16384x32) (s₁ := S16384x16) (s₂ := S16384x16) 1 Wl Wr Facts₀.concatenates_S16384x16_S16384x16_S16384x32_d1
    (ValueIdx.ix2 K j') rfl rfl (ValueIdx.ix2 K j) (fun b => match b with
      | ⟨0, _⟩ => fun _ => rfl
      | ⟨1, _⟩ => fun h => absurd rfl h)
    (by show j.val + 16 = j'.val; omega)

/-! ## The host's contraction at an entry -/

/-- the host's product of X with a 16384 x 16 matrix W, at (R, j), is the sum over K of X[R, K] * W[K, j] -/
theorem hostProduct_apply (X : (⟨S16384x16384, .f32⟩ : BufTy).Contents (Elt Ideal)) (W : (⟨S16384x16, .f32⟩ : BufTy).Contents (Elt Ideal))
    (R : Fin 16384) (j : Fin 16) :
    Host.dotGeneral (F := Ideal) (φ₁ := .f32) (φ₂ := .f32) Cert.ReferenceIdeal.dot_S16384x16384_S16384x16_S16384x16_1_0_0_1_n_n none X W (ValueIdx.ix2 R j)
      = ∑ K : Fin 16384, X (ValueIdx.ix2 R K) * W (ValueIdx.ix2 K j) := by
  refine (Cert.ReferenceIdeal.Read.val_main_v4_apply X W (ValueIdx.ix2 R j)).trans ?_
  refine Finset.sum_congr rfl fun K _ => ?_
  have el : Cert.ReferenceIdeal.Read.lidx_main_v4 (ValueIdx.ix2 R j) K = ValueIdx.ix2 R K :=
    funext fun a => Fin.ext (by match a with | ⟨0, _⟩ => rfl | ⟨1, _⟩ => rfl)
  have er : Cert.ReferenceIdeal.Read.ridx_main_v4 (ValueIdx.ix2 R j) K = ValueIdx.ix2 K j :=
    funext fun a => Fin.ext (by match a with | ⟨0, _⟩ => rfl | ⟨1, _⟩ => rfl)
  rw [el, er]

/-! ## The two halves of the product -/

/-- the left sixteen columns of the product with the side-by-side weights are the host's product with the left weights -/
theorem left_half (X : (⟨S16384x16384, .f32⟩ : BufTy).Contents (Elt Ideal)) (Wl Wr : (⟨S16384x16, .f32⟩ : BufTy).Contents (Elt Ideal)) :
    extractStridedSlice S16384x16 ![0, 0] (rowsTimes X (concatenate S16384x32 1 [⟨S16384x16, Wl⟩, ⟨S16384x16, Wr⟩] Facts₀.concatenates_S16384x16_S16384x16_S16384x32_d1)) Facts₀.slices_S16384x32_S16384x16_0_0
      = Host.dotGeneral (F := Ideal) (φ₁ := .f32) (φ₂ := .f32) Cert.ReferenceIdeal.dot_S16384x16384_S16384x16_S16384x16_1_0_0_1_n_n none X Wl := by
  funext i
  obtain ⟨R, j, rfl⟩ : ∃ (R : Fin 16384) (j : Fin 16), i = ValueIdx.ix2 R j := ⟨i 0, i 1, ValueIdx.eq_ix2 i⟩
  have hj : j.val < 32 := by have := j.isLt; omega
  refine (extractStridedSlice_apply (s := S16384x32) (t := S16384x16) ![0, 0] _ Facts₀.slices_S16384x32_S16384x16_0_0 (ValueIdx.ix2 R j)
    (ValueIdx.ix2 R (⟨j.val, hj⟩ : Fin 32)) (fun a => match a with
      | ⟨0, _⟩ => by show R.val = 0 + R.val; omega
      | ⟨1, _⟩ => by show j.val = 0 + j.val; omega)).trans ?_
  refine (rowsTimes_apply X _ R ⟨j.val, hj⟩).trans ?_
  refine Eq.trans ?_ (hostProduct_apply X Wl R j).symm
  exact Finset.sum_congr rfl fun K _ => congrArg (X (ValueIdx.ix2 R K) * ·) (sideBySide_left Wl Wr K j ⟨j.val, hj⟩ rfl)

/-- the right sixteen columns of the product with the side-by-side weights are the host's product with the right weights -/
theorem right_half (X : (⟨S16384x16384, .f32⟩ : BufTy).Contents (Elt Ideal)) (Wl Wr : (⟨S16384x16, .f32⟩ : BufTy).Contents (Elt Ideal)) :
    extractStridedSlice S16384x16 ![0, 16] (rowsTimes X (concatenate S16384x32 1 [⟨S16384x16, Wl⟩, ⟨S16384x16, Wr⟩] Facts₀.concatenates_S16384x16_S16384x16_S16384x32_d1)) Facts₀.slices_S16384x32_S16384x16_0_16
      = Host.dotGeneral (F := Ideal) (φ₁ := .f32) (φ₂ := .f32) Cert.ReferenceIdeal.dot_S16384x16384_S16384x16_S16384x16_1_0_0_1_n_n none X Wr := by
  funext i
  obtain ⟨R, j, rfl⟩ : ∃ (R : Fin 16384) (j : Fin 16), i = ValueIdx.ix2 R j := ⟨i 0, i 1, ValueIdx.eq_ix2 i⟩
  have hj : 16 + j.val < 32 := by have := j.isLt; omega
  refine (extractStridedSlice_apply (s := S16384x32) (t := S16384x16) ![0, 16] _ Facts₀.slices_S16384x32_S16384x16_0_16 (ValueIdx.ix2 R j)
    (ValueIdx.ix2 R (⟨16 + j.val, hj⟩ : Fin 32)) (fun a => match a with
      | ⟨0, _⟩ => by show R.val = 0 + R.val; omega
      | ⟨1, _⟩ => by show 16 + j.val = 16 + j.val; rfl)).trans ?_
  refine (rowsTimes_apply X _ R ⟨16 + j.val, hj⟩).trans ?_
  refine Eq.trans ?_ (hostProduct_apply X Wr R j).symm
  exact Finset.sum_congr rfl fun K _ => congrArg (X (ValueIdx.ix2 R K) * ·) (sideBySide_right Wl Wr K j ⟨16 + j.val, hj⟩ rfl)

end Cert.KernelIdeal.Around

end
-- ==== Proof.KI.Out.lean ====
/-
  The last bridge: the reference's result and what the kernel program leaves in its result buffer are the same array.

  After the region both programs are the same network.  One graph convolution takes a left product P and a right
  product Q of the activations, the bias b, the sources s and targets t of the edges and the floored in-degree d, and
  returns  scatter-add over t of the rows of P gathered at s (a negative index counting from the end), divided row by
  row by d, plus b on every row, plus Q.  The first layer is that convolution of the two products of x with W1l and W1r,
  the second and third take both products from host contractions of the rectified activations, and the head is one
  more contraction plus a bias row.

  The kernel program computes s, t and d once before the region, gets the first layer's two products as the left and the
  right sixteen columns of the region's output x . [W1l | W1r], and runs the rest as seventy-three host operations in five
  stretches; read stretch by stretch, each stretch is one named piece of the network applied to the previous stretch's
  result and to buffers no later operation writes.  The reference computes the two first-layer products by two host
  contractions and recomputes d at every layer from the same targets, which gives the same d each time.  The two halves
  of the region's output are those two host contractions, so the two results are the same network applied to equal
  arguments.
-/
import proofs.«151015_j27419071218491_1_alg».proof.Proof.KI.Carried
import proofs.«151015_j27419071218491_1_alg».proof.Proof.KI.Later
import proofs.«151015_j27419071218491_1_alg».proof.Proof.KI.Spec
import proofs.«151015_j27419071218491_1_alg».proof.Proof.KI.Product
import proofs.«151015_j27419071218491_1_alg».proof.Proof.KI.Halves
import proofs.«151015_j27419071218491_1_alg».proof.Proof.Gen.ReferenceIdeal.Run
import Idealize.ShloMosaic.Lib.StableHlo.Run
import Idealize.ShloMosaic.Lib.Pipeline.Frame
import Idealize.ShloMosaic.Lib.Pipeline.FrameSuffix

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen
open Idealize.ShloMosaic.Pipeline (Dat Cfg)

/-! ## The network after the first layer's products -/

section Net
variable {F : FTy → Type} [FloatOps F]

/-- Row 0 of the edge list: the source node of every edge. -/
def srcOf (E : (⟨S2x524288, .i32⟩ : BufTy).Contents (Elt F)) : (⟨S524288, .i32⟩ : BufTy).Contents (Elt F) :=
  shapeCast _ (extractStridedSlice S1x524288 ![0, 0] E slices_S2x524288_S1x524288_0_0) shapeCasts_S1x524288_S524288

/-- Row 1 of the edge list: the target node of every edge. -/
def tgtOf (E : (⟨S2x524288, .i32⟩ : BufTy).Contents (Elt F)) : (⟨S524288, .i32⟩ : BufTy).Contents (Elt F) :=
  shapeCast _ (extractStridedSlice S1x524288 ![1, 0] E slices_S2x524288_S1x524288_1_0) shapeCasts_S1x524288_S524288

/-- The in-degree of every node (a scatter of ones over the targets), floored at one, as a column. -/
def inDeg (t : (⟨S524288, .i32⟩ : BufTy).Contents (Elt F)) : (⟨S16384x1, .f32⟩ : BufTy).Contents (Elt F) :=
  broadcastInDim S16384x1 ![0] bcast_S16384_S16384x1_0
    (maximumf
      (Host.scatterAdd scatter_S16384_S524288x1_S524288_n_0_0_1
        (broadcastInDim S16384 ![] bcast_S_S16384 (constant S_ .f32 0x00000000#32))
        (broadcastInDim S524288x1 ![0] bcast_S524288_S524288x1_0 t)
        (broadcastInDim S524288 ![] bcast_S_S524288 (constant S_ .f32 0x3F800000#32)))
      (broadcastInDim S16384 ![] bcast_S_S16384 (constant S_ .f32 0x3F800000#32)))

/-- A negative node index counts from the end. -/
def wrapIdx (s : (⟨S524288, .i32⟩ : BufTy).Contents (Elt F)) : (⟨S524288, .i32⟩ : BufTy).Contents (Elt F) :=
  select (cmpi .slt s (broadcastInDim S524288 ![] bcast_S_S524288 (constantI S_ 32 0#32)))
    (addi s (broadcastInDim S524288 ![] bcast_S_S524288 (constantI S_ 32 16384#32))) s

/-- One graph convolution from the two products: the mean over incoming edges of the left product's rows, plus the bias,
    plus the right product. -/
def conv (hl hr : (⟨S16384x16, .f32⟩ : BufTy).Contents (Elt F)) (b : (⟨S16, .f32⟩ : BufTy).Contents (Elt F))
    (s t : (⟨S524288, .i32⟩ : BufTy).Contents (Elt F)) (d : (⟨S16384x1, .f32⟩ : BufTy).Contents (Elt F)) :
    (⟨S16384x16, .f32⟩ : BufTy).Contents (Elt F) :=
  addf
    (addf
      (Host.divf
        (Host.scatterAdd scatter_S16384x16_S524288x1_S524288x16_1_0_0_1
          (broadcastInDim S16384x16 ![] bcast_S_S16384x16 (constant S_ .f32 0x00000000#32))
          (broadcastInDim S524288x1 ![0] bcast_S524288_S524288x1_0 t)
          (Host.gather gather_S16384x16_S524288x1_S524288x16_1_0_n_n_0_1_116 hl
            (broadcastInDim S524288x1 ![0] bcast_S524288_S524288x1_0 (wrapIdx s))))
        (broadcastInDim S16384x16 ![0, 1] bcast_S16384x1_S16384x16_0_1 d))
      (broadcastInDim S16384x16 ![0, 1] bcast_S1x16_S16384x16_0_1 (broadcastInDim S1x16 ![1] bcast_S16_S1x16_1 b)))
    hr

/-- The rectifier. -/
def relu (h : (⟨S16384x16, .f32⟩ : BufTy).Contents (Elt F)) : (⟨S16384x16, .f32⟩ : BufTy).Contents (Elt F) :=
  maximumf h (broadcastInDim S16384x16 ![] bcast_S_S16384x16 (constant S_ .f32 0x00000000#32))

/-- A later layer: both products are host contractions of the same activations. -/
def layer (h : (⟨S16384x16, .f32⟩ : BufTy).Contents (Elt F)) (Wl : (⟨S16x16, .f32⟩ : BufTy).Contents (Elt F))
    (b : (⟨S16, .f32⟩ : BufTy).Contents (Elt F)) (Wr : (⟨S16x16, .f32⟩ : BufTy).Contents (Elt F))
    (s t : (⟨S524288, .i32⟩ : BufTy).Contents (Elt F)) (d : (⟨S16384x1, .f32⟩ : BufTy).Contents (Elt F)) :
    (⟨S16384x16, .f32⟩ : BufTy).Contents (Elt F) :=
  conv (Host.dotGeneral dot_S16384x16_S16x16_S16384x16_1_0_0_1_n_n none h Wl)
    (Host.dotGeneral dot_S16384x16_S16x16_S16384x16_1_0_0_1_n_n none h Wr) b s t d

/-- The network after the first layer's two products. -/
def net (pl pr : (⟨S16384x16, .f32⟩ : BufTy).Contents (Elt F)) (b1 : (⟨S16, .f32⟩ : BufTy).Contents (Elt F))
    (W2l : (⟨S16x16, .f32⟩ : BufTy).Contents (Elt F)) (b2 : (⟨S16, .f32⟩ : BufTy).Contents (Elt F)) (W2r : (⟨S16x16, .f32⟩ : BufTy).Contents (Elt F))
    (W3l : (⟨S16x16, .f32⟩ : BufTy).Contents (Elt F)) (b3 : (⟨S16, .f32⟩ : BufTy).Contents (Elt F)) (W3r : (⟨S16x16, .f32⟩ : BufTy).Contents (Elt F))
    (Wo : (⟨S16x237, .f32⟩ : BufTy).Contents (Elt F)) (bo : (⟨S237, .f32⟩ : BufTy).Contents (Elt F))
    (s t : (⟨S524288, .i32⟩ : BufTy).Contents (Elt F)) (d : (⟨S16384x1, .f32⟩ : BufTy).Contents (Elt F)) :
    (⟨S16384x237, .f32⟩ : BufTy).Contents (Elt F) :=
  addf
    (Host.dotGeneral dot_S16384x16_S16x237_S16384x237_1_0_0_1_n_n none
      (layer (relu (layer (relu (conv pl pr b1 s t d)) W2l b2 W2r s t d)) W3l b3 W3r s t d) Wo)
    (broadcastInDim S16384x237 ![0, 1] bcast_S1x237_S16384x237_0_1 (broadcastInDim S1x237 ![1] bcast_S237_S1x237_1 bo))

end Net

/-! ## The later operations, stretch by stretch -/

section Tail
variable {F : FTy → Type} [FloatOps F]

/-- The later operations as one line: the five stretches in a row. -/
theorem later_flatten : List.flatten (later (F := F)) = hostOps1 ++ (hostOps1_1 ++ (hostOps1_2 ++ (hostOps1_3 ++ hostOps1_4))) := by
  simp only [later, List.flatten_cons, List.flatten_nil, List.append_nil]

/-- A buffer that is no result of a later operation passes through any of the five stretches. -/
theorem kept (ops : List (HloOp τ sig (Elt F))) (hops : ops ∈ (later : List (List (HloOp τ sig (Elt F)))))
    (V : Valuation τ sig (Elt F)) (b : Ref sig .tc) (hb : b ∉ writtenLater) :
    StableHlo.after ops V (Proc.devRef .tc b) = V (Proc.devRef .tc b) :=
  StableHlo.after_of_writes_sub ops V (List.forall_iff_forall_mem.mpr (later_writes ops hops)) hb

set_option maxHeartbeats 20000000 in
/-- The first stretch: the first graph convolution, from the two halves of the region's output. -/
theorem stretch1 (V : Valuation τ sig (Elt F)) :
    StableHlo.after hostOps1 V (Proc.devRef .tc main_v30) =
      conv (extractStridedSlice S16384x16 ![0, 0] (V (Proc.devRef .tc main_v12)) slices_S16384x32_S16384x16_0_0)
        (extractStridedSlice S16384x16 ![0, 16] (V (Proc.devRef .tc main_v12)) slices_S16384x32_S16384x16_0_16)
        (V (Proc.devRef .tc main_arg3)) (V (Proc.devRef .tc main_v1)) (V (Proc.devRef .tc main_v3)) (V (Proc.devRef .tc main_v10)) := by
  simp only [hostOps1]
  after_results_simp
  unfold conv wrapIdx
  rfl

/-- The second stretch: the rectifier. -/
theorem stretch2 (V : Valuation τ sig (Elt F)) :
    StableHlo.after hostOps1_1 V (Proc.devRef .tc main_v31) = relu (V (Proc.devRef .tc main_v30)) := by
  simp only [hostOps1_1]
  after_results
  unfold relu
  rfl

set_option maxHeartbeats 20000000 in
/-- The third stretch: the second layer. -/
theorem stretch3 (V : Valuation τ sig (Elt F)) :
    StableHlo.after hostOps1_2 V (Proc.devRef .tc main_v49) =
      layer (V (Proc.devRef .tc main_v31)) (V (Proc.devRef .tc main_arg5)) (V (Proc.devRef .tc main_arg6)) (V (Proc.devRef .tc main_arg7))
        (V (Proc.devRef .tc main_v1)) (V (Proc.devRef .tc main_v3)) (V (Proc.devRef .tc main_v10)) := by
  simp only [hostOps1_2]
  after_results_simp
  unfold layer conv wrapIdx
  rfl

/-- The fourth stretch: the rectifier again. -/
theorem stretch4 (V : Valuation τ sig (Elt F)) :
    StableHlo.after hostOps1_3 V (Proc.devRef .tc main_v50) = relu (V (Proc.devRef .tc main_v49)) := by
  simp only [hostOps1_3]
  after_results
  unfold relu
  rfl

set_option maxHeartbeats 20000000 in
/-- The fifth stretch: the third layer and the output head. -/
theorem stretch5 (V : Valuation τ sig (Elt F)) :
    StableHlo.after hostOps1_4 V (Proc.devRef .tc main_v72) =
      addf
        (Host.dotGeneral dot_S16384x16_S16x237_S16384x237_1_0_0_1_n_n none
          (layer (V (Proc.devRef .tc main_v50)) (V (Proc.devRef .tc main_arg8)) (V (Proc.devRef .tc main_arg9)) (V (Proc.devRef .tc main_arg10))
            (V (Proc.devRef .tc main_v1)) (V (Proc.devRef .tc main_v3)) (V (Proc.devRef .tc main_v10)))
          (V (Proc.devRef .tc main_arg11)))
        (broadcastInDim S16384x237 ![0, 1] bcast_S1x237_S16384x237_0_1 (broadcastInDim S1x237 ![1] bcast_S237_S1x237_1 (V (Proc.devRef .tc main_arg12)))) := by
  simp only [hostOps1_4]
  after_results_simp
  unfold layer conv wrapIdx
  rfl

/-- The seventy-three later operations, read at the result: the network applied to the two halves of the region's
    output, the three buffers computed before the region and the arguments. -/
theorem tail_read (W : Valuation τ sig (Elt F)) :
    StableHlo.after (List.flatten (later (F := F))) W (Proc.devRef .tc main_v72) =
      net (extractStridedSlice S16384x16 ![0, 0] (W (Proc.devRef .tc main_v12)) slices_S16384x32_S16384x16_0_0)
        (extractStridedSlice S16384x16 ![0, 16] (W (Proc.devRef .tc main_v12)) slices_S16384x32_S16384x16_0_16)
        (W (Proc.devRef .tc main_arg3)) (W (Proc.devRef .tc main_arg5)) (W (Proc.devRef .tc main_arg6)) (W (Proc.devRef .tc main_arg7))
        (W (Proc.devRef .tc main_arg8)) (W (Proc.devRef .tc main_arg9)) (W (Proc.devRef .tc main_arg10)) (W (Proc.devRef .tc main_arg11))
        (W (Proc.devRef .tc main_arg12)) (W (Proc.devRef .tc main_v1)) (W (Proc.devRef .tc main_v3)) (W (Proc.devRef .tc main_v10)) := by
  have k1 : ∀ b, b ∉ writtenLater → StableHlo.after hostOps1 W (Proc.devRef .tc b) = W (Proc.devRef .tc b) :=
    fun b hb => kept hostOps1 (by simp [later]) W b hb
  have k2 : ∀ b, b ∉ writtenLater →
      StableHlo.after hostOps1_1 (StableHlo.after hostOps1 W) (Proc.devRef .tc b) = W (Proc.devRef .tc b) :=
    fun b hb => (kept hostOps1_1 (by simp [later]) _ b hb).trans (k1 b hb)
  have k3 : ∀ b, b ∉ writtenLater →
      StableHlo.after hostOps1_2 (StableHlo.after hostOps1_1 (StableHlo.after hostOps1 W)) (Proc.devRef .tc b) = W (Proc.devRef .tc b) :=
    fun b hb => (kept hostOps1_2 (by simp [later]) _ b hb).trans (k2 b hb)
  have k4 : ∀ b, b ∉ writtenLater →
      StableHlo.after hostOps1_3 (StableHlo.after hostOps1_2 (StableHlo.after hostOps1_1 (StableHlo.after hostOps1 W))) (Proc.devRef .tc b)
        = W (Proc.devRef .tc b) :=
    fun b hb => (kept hostOps1_3 (by simp [later]) _ b hb).trans (k3 b hb)
  rw [later_flatten, StableHlo.after_append, StableHlo.after_append, StableHlo.after_append, StableHlo.after_append,
    stretch5, stretch4, stretch3, stretch2, stretch1,
    k4 main_arg8 (by decide), k4 main_arg9 (by decide), k4 main_arg10 (by decide), k4 main_arg11 (by decide), k4 main_arg12 (by decide),
    k4 main_v1 (by decide), k4 main_v3 (by decide), k4 main_v10 (by decide),
    k2 main_arg5 (by decide), k2 main_arg6 (by decide), k2 main_arg7 (by decide),
    k2 main_v1 (by decide), k2 main_v3 (by decide), k2 main_v10 (by decide)]
  rfl

end Tail

/-! ## The three buffers computed before the region -/

section EntryVals
variable {F : FTy → Type} [FloatOps F]
variable (m : (ℓ : Loc nD τ sig) → Buf (Elt F) ℓ)

/-- The region is entered with the sources of the edges in their buffer. -/
theorem entry_v1 (c : Dev nD) : entryAt m c main_v1 = srcOf (m ((c : Thread nD τ).loc main_arg1)) := by
  show StableHlo.after (List.flatten [hostOps0]) (fun b => m (c, b)) (Proc.devRef .tc main_v1) = _
  simp only [hostOps0, List.flatten_cons, List.flatten_nil, List.append_nil]
  after_results
  rfl

/-- It is entered with the targets of the edges in theirs. -/
theorem entry_v3 (c : Dev nD) : entryAt m c main_v3 = tgtOf (m ((c : Thread nD τ).loc main_arg1)) := by
  show StableHlo.after (List.flatten [hostOps0]) (fun b => m (c, b)) (Proc.devRef .tc main_v3) = _
  simp only [hostOps0, List.flatten_cons, List.flatten_nil, List.append_nil]
  after_results
  rfl

/-- And with the floored in-degree of every node in its buffer. -/
theorem entry_v10 (c : Dev nD) : entryAt m c main_v10 = inDeg (tgtOf (m ((c : Thread nD τ).loc main_arg1))) := by
  show StableHlo.after (List.flatten [hostOps0]) (fun b => m (c, b)) (Proc.devRef .tc main_v10) = _
  simp only [hostOps0, List.flatten_cons, List.flatten_nil, List.append_nil]
  after_results
  rfl

end EntryVals

/-! ## The reference's result -/

/-- The reference's first-layer product: the host's contraction over all 16384 reduction indices. -/
abbrev hostDot (X : (⟨S16384x16384, .f32⟩ : BufTy).Contents (Elt Ideal)) (W : (⟨S16384x16, .f32⟩ : BufTy).Contents (Elt Ideal)) :
    (⟨S16384x16, .f32⟩ : BufTy).Contents (Elt Ideal) :=
  Host.dotGeneral (F := Ideal) (φ₁ := .f32) (φ₂ := .f32) Cert.ReferenceIdeal.dot_S16384x16384_S16384x16_S16384x16_1_0_0_1_n_n none X W

/-- The reference's result is the same network over its own two host products, its own rows of the edge list and the
    in-degree it recomputes at every layer. -/
theorem ref_eq (m' : (ℓ : Loc Cert.ReferenceIdeal.nD Cert.ReferenceIdeal.τ Cert.ReferenceIdeal.sig) → Buf (Elt Ideal) ℓ) (c : Dev nD) :
    Cert.ReferenceIdeal.Value.res_main_v84 m' c =
      net (F := Ideal) (hostDot (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (hostDot (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
        (srcOf (m' ((c.tc : Thread Cert.ReferenceIdeal.nD Cert.ReferenceIdeal.τ).loc Cert.ReferenceIdeal.main_arg1))) (tgtOf (m' ((c.tc : Thread Cert.ReferenceIdeal.nD Cert.ReferenceIdeal.τ).loc Cert.ReferenceIdeal.main_arg1))) (inDeg (tgtOf (m' ((c.tc : Thread Cert.ReferenceIdeal.nD Cert.ReferenceIdeal.τ).loc Cert.ReferenceIdeal.main_arg1)))) := by
  unfold Cert.ReferenceIdeal.Value.res_main_v84 net layer conv relu wrapIdx inDeg srcOf tgtOf
  rfl

/-! ## The two results -/

section Assemble
variable (m : (ℓ : Loc nD τ sig) → Buf (Elt Ideal) ℓ)

/-- What core `c`'s buffers hold when the region is left: the pipeline's arrays at what the proof data computes, every
    other buffer as the region was entered. -/
abbrev exitVal (c : Dev nD) : Valuation τ sig (Elt Ideal) :=
  Pipeline.withArrays (cfgs 0).spec c (entry m c) fun w => (dats m 0 c).arrAt w (cfgs 0).N

/-- The region leaves in its output array the product of x with the two weight arrays side by side. -/
theorem exit_v12 (c : Dev nD) :
    exitVal m c (Proc.devRef .tc main_v12) =
      rowsTimes (m ((c : Thread nD τ).loc main_arg0))
        (concatenate S16384x32 1 [⟨S16384x16, m ((c : Thread nD τ).loc main_arg2)⟩, ⟨S16384x16, m ((c : Thread nD τ).loc main_arg4)⟩]
          Facts₀.concatenates_S16384x16_S16384x16_S16384x32_d1) :=
  (Pipeline.withArrays_arr spec0 launch0.win.arr_inj c _ _ 2).trans
    ((region_result m c).trans (by rw [weights_entry m c, arg0_entry m c]))

/-- A buffer that is no array of the pipeline is left as it was entered. -/
theorem exit_of_ne (c : Dev nD) (b : Ref sig .tc) (ha : ∀ w, Pipeline.arrRef spec0 w ≠ b) :
    exitVal m c (Proc.devRef .tc b) = entryAt m c b :=
  Pipeline.withArrays_of_ne _ c (entry m c) _ b ha

/-- An argument the pipeline does not stage is left as launched. -/
theorem exit_arg (c : Dev nD) (b : Ref sig .tc) (ha : ∀ w, Pipeline.arrRef spec0 w ≠ b) (hb : b ∉ writtenBefore) :
    exitVal m c (Proc.devRef .tc b) = m ((c : Thread nD τ).loc b) :=
  (exit_of_ne m c b ha).trans (entry_of_not_written m c b hb)

set_option maxHeartbeats 8000000 in
/-- Both programs, from memories that agree on the thirteen arguments, end with the same result on core `c`. -/
theorem result_eq (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v84 m' c = Pipeline.afterTail₀ cfgs (dats m) 0 (entry m) later c main_v72 := by
  obtain ⟨h0, h1, h2, h3, h4, h5, h6, h7, h8, h9, h10, h11, h12⟩ := hagree
  refine (ref_eq m' c).trans ?_
  rw [h0, h1, h2, h3, h4, h5, h6, h7, h8, h9, h10, h11, h12]
  refine Eq.trans ?_ (tail_read (exitVal m c)).symm
  rw [exit_v12 m c, left_half, right_half,
    exit_arg m c main_arg3 (by decide) (by decide), exit_arg m c main_arg5 (by decide) (by decide),
    exit_arg m c main_arg6 (by decide) (by decide), exit_arg m c main_arg7 (by decide) (by decide),
    exit_arg m c main_arg8 (by decide) (by decide), exit_arg m c main_arg9 (by decide) (by decide),
    exit_arg m c main_arg10 (by decide) (by decide), exit_arg m c main_arg11 (by decide) (by decide),
    exit_arg m c main_arg12 (by decide) (by decide),
    exit_of_ne m c main_v1 (by decide), exit_of_ne m c main_v3 (by decide), exit_of_ne m c main_v10 (by decide),
    entry_v1 m c, entry_v3 m c, entry_v10 m c]

end Assemble

end Cert.KernelIdeal.Around

end
-- ==== Proof.lean ====
/-
  A three-layer GraphSAGE forward.  The kernel program fuses the first layer's two products x * W1l and x * W1r into one
  product of x with the weights laid side by side, computed on the matrix unit eight blocks of 2048 reduction indices at a
  time into an accumulator (zeroed at the first block, copied out after the last), and slices the two halves back apart;
  everything else (the in-degree of each node by a scatter of ones, the gather / scatter-add mean aggregation, biases,
  relu, the output head) it leaves to the host, exactly as the reference does.  On the extended reals a sum may be
  regrouped freely, so the blocked product is the whole one, its left sixteen columns are x * W1l and its right sixteen
  x * W1r, and from there on the two programs apply the same operations to equal values.
  Frames: each kernel program's by the launch theorem for "host operations, one region, host operations", the
  accumulator carried from grid point to grid point in the region's invariant; the reference's is its run with the result
  dropped.  The idealization changes no operation, so nothing is owed for it.
-/
import proofs.«151015_j27419071218491_1_alg».proof.Defs
import proofs.«151015_j27419071218491_1_alg».proof.Proof.Gen.Kernel
import proofs.«151015_j27419071218491_1_alg».proof.Proof.Gen.KernelIdeal
import proofs.«151015_j27419071218491_1_alg».proof.Proof.Gen.ReferenceIdeal
import proofs.«151015_j27419071218491_1_alg».proof.Proof.Gen.Pre_finite_inputs
import proofs.«151015_j27419071218491_1_alg».proof.Proof.Gen.ReferenceIdeal.Run
import proofs.«151015_j27419071218491_1_alg».proof.Proof.Gen.ReferenceIdeal.Read
import proofs.«151015_j27419071218491_1_alg».proof.Proof.K.Frame
import proofs.«151015_j27419071218491_1_alg».proof.Proof.KI.Frame
import proofs.«151015_j27419071218491_1_alg».proof.Proof.KI.Out
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Around.frame m ρ

/-- So does the kernel program read on the extended reals. -/
theorem frame_ki : Cert.frame_KernelIdeal := fun m ρ _ => Cert.KernelIdeal.Around.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with equal results on the extended reals: the kernel program's result is what the seventy-three later
    operations leave from the region's output, the region's output is the whole product, its two halves are the reference's
    two products, and the remaining operations are the reference's own. -/
theorem algebraic : Cert.algebraic_KernelIdeal_ReferenceIdeal := by
  intro m ρ m' ρ' _ hagree
  refine ⟨fun c => Pipeline.afterTail₀ Cert.KernelIdeal.cfgs (Cert.KernelIdeal.Around.dats m) 0 (Cert.KernelIdeal.Around.entry m)
      Cert.KernelIdeal.Around.later c Cert.KernelIdeal.main_v72,
    Cert.KernelIdeal.Around.result_and_frame_of_run m ρ (Cert.KernelIdeal.Around.dats m) (Cert.KernelIdeal.Around.dats_A m)
      (Cert.KernelIdeal.Around.run_main m ρ), ?_⟩
  exact (θ_run Cert.ReferenceIdeal.defs _ _).mono
    (fun _ h c => ⟨(h c).1.trans (Cert.KernelIdeal.Around.result_eq m m' c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
